-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S528x512 : Shape := ⟨2, ![528, 512]⟩
abbrev S528 : Shape := ⟨1, ![528]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S528x512 : S_.BroadcastsInDim S528x512 (![] : Fin 0 → Fin S528x512.rank)
  reducesTo_S528x512_S_d0_1 : S528x512.ReducesTo [0, 1] S_
  bcast_S_S528 : S_.BroadcastsInDim S528 (![] : Fin 0 → Fin S528.rank)
  reducesTo_S528_S_d0 : S528.ReducesTo [0] S_

variable [Facts]

def fn {F : FTy → Type} [FloatOps F] (main_arg0 : FVec F S65536x512 .f32) (main_arg1 : FVec F S528x512 .f32) (main_arg2 : FVec F S528 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S528x512 .f32 := Host.absf main_arg1
  let main_cst_0 : FVec F S_ .f32 := constant S_ .f32 0x7F800000#32
  let main_v5 : FVec F S528x512 .f32 := broadcastInDim S528x512 ![] bcast_S_S528x512 main_cst_0
  let main_v6 : IVec S528x512 1 := cmpf .olt main_v4 main_v5
  let main_c_1 : IVec S_ 1 := constantI S_ 1 1#1
  let main_v7 : IVec S_ 1 := (fun x v => Host.reduce IntOp.andi x v reducesTo_S528x512_S_d0_1 h_S_) main_v6 main_c_1
  let main_v8 : IVec S_ 1 := andi main_v3 main_v7
  let main_v9 : FVec F S528 .f32 := Host.absf main_arg2
  let main_cst_2 : FVec F S_ .f32 := constant S_ .f32 0x7F800000#32
  let main_v10 : FVec F S528 .f32 := broadcastInDim S528 ![] bcast_S_S528 main_cst_2
  let main_v11 : IVec S528 1 := cmpf .olt main_v9 main_v10
  let main_c_3 : IVec S_ 1 := constantI S_ 1 1#1
  let main_v12 : IVec S_ 1 := (fun x v => Host.reduce IntOp.andi x v reducesTo_S528_S_d0 h_S_) main_v11 main_c_3
  let main_v13 : IVec S_ 1 := andi main_v8 main_v12
  main_v13
-- ==== Kernel.lean ====
abbrev S65536x512 : Shape := ⟨2, ![65536, 512]⟩
abbrev S528x512 : Shape := ⟨2, ![528, 512]⟩
abbrev S528 : Shape := ⟨1, ![528]⟩
abbrev S1x528 : Shape := ⟨2, ![1, 528]⟩
abbrev S65536x32x32 : Shape := ⟨3, ![65536, 32, 32]⟩
abbrev S1024x512 : Shape := ⟨2, ![1024, 512]⟩
abbrev S1024x32x32 : Shape := ⟨3, ![1024, 32, 32]⟩
abbrev S512x528 : Shape := ⟨2, ![512, 528]⟩
abbrev S1024x528 : Shape := ⟨2, ![1024, 528]⟩
abbrev S1024x1 : Shape := ⟨2, ![1024, 1]⟩
abbrev S1024x31 : Shape := ⟨2, ![1024, 31]⟩
abbrev S1024x32 : Shape := ⟨2, ![1024, 32]⟩
abbrev S1024x2 : Shape := ⟨2, ![1024, 2]⟩
abbrev S1024x30 : Shape := ⟨2, ![1024, 30]⟩
abbrev S1024x3 : Shape := ⟨2, ![1024, 3]⟩
abbrev S1024x29 : Shape := ⟨2, ![1024, 29]⟩
abbrev S1024x4 : Shape := ⟨2, ![1024, 4]⟩
abbrev S1024x28 : Shape := ⟨2, ![1024, 28]⟩
abbrev S1024x5 : Shape := ⟨2, ![1024, 5]⟩
abbrev S1024x27 : Shape := ⟨2, ![1024, 27]⟩
abbrev S1024x6 : Shape := ⟨2, ![1024, 6]⟩
abbrev S1024x26 : Shape := ⟨2, ![1024, 26]⟩
abbrev S1024x7 : Shape := ⟨2, ![1024, 7]⟩
abbrev S1024x25 : Shape := ⟨2, ![1024, 25]⟩
abbrev S1024x8 : Shape := ⟨2, ![1024, 8]⟩
abbrev S1024x24 : Shape := ⟨2, ![1024, 24]⟩
abbrev S1024x9 : Shape := ⟨2, ![1024, 9]⟩
abbrev S1024x23 : Shape := ⟨2, ![1024, 23]⟩
abbrev S1024x10 : Shape := ⟨2, ![1024, 10]⟩
abbrev S1024x22 : Shape := ⟨2, ![1024, 22]⟩
abbrev S1024x11 : Shape := ⟨2, ![1024, 11]⟩
abbrev S1024x21 : Shape := ⟨2, ![1024, 21]⟩
abbrev S1024x12 : Shape := ⟨2, ![1024, 12]⟩
abbrev S1024x20 : Shape := ⟨2, ![1024, 20]⟩
abbrev S1024x13 : Shape := ⟨2, ![1024, 13]⟩
abbrev S1024x19 : Shape := ⟨2, ![1024, 19]⟩
abbrev S1024x14 : Shape := ⟨2, ![1024, 14]⟩
abbrev S1024x18 : Shape := ⟨2, ![1024, 18]⟩
abbrev S1024x15 : Shape := ⟨2, ![1024, 15]⟩
abbrev S1024x17 : Shape := ⟨2, ![1024, 17]⟩
abbrev S1024x16 : Shape := ⟨2, ![1024, 16]⟩
abbrev S1024x1x32 : Shape := ⟨3, ![1024, 1, 32]⟩

abbrev nBuf : Space → Nat
  | .hbm => 5
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S528x512, .f32⟩
  | .hbm, ⟨2, _⟩ => ⟨S528, .f32⟩
  | .hbm, ⟨3, _⟩ => ⟨S1x528, .f32⟩
  | .hbm, ⟨4, _⟩ => ⟨S65536x32x32, .f32⟩
  | .local _ .vmem, ⟨0, _⟩ => ⟨S1024x512, .f32⟩
  | .local _ .vmem, ⟨1, _⟩ => ⟨S1024x512, .f32⟩
  | .local _ .vmem, ⟨2, _⟩ => ⟨S528x512, .f32⟩
  | .local _ .vmem, ⟨3, _⟩ => ⟨S1x528, .f32⟩
  | .local _ .vmem, ⟨4, _⟩ => ⟨S1024x32x32, .f32⟩
  | .local _ .vmem, ⟨5, _⟩ => ⟨S1024x32x32, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S528x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x528 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S528_S1x528 : S528.ShapeCasts S1x528
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S528x512_S528x512_0_0 : ∀ a, (![0, 0] : Fin 2 → Nat) a + S528x512.size a ≤ S528x512.size a
  h_S528x512 : 0 < S528x512.numel
  transposes_S528x512_p1_0_S512x528 : S528x512.Transposes [1, 0] S512x528
  inb_S1x528_S1x528_0_0 : ∀ a, (![0, 0] : Fin 2 → Nat) a + S1x528.size a ≤ S1x528.size a
  h_S1x528 : 0 < S1x528.numel
  shapeCasts_S1x528_S1x528 : S1x528.ShapeCasts S1x528
  broadcasts_S1x528_S1024x528 : S1x528.Broadcasts S1024x528
  slices_S1024x528_o0_0_S1024x1 : S1024x528.Slices ![0, 0] S1024x1
  concatenates_S1024x1_S1024x31_S1024x32_d1 : Shape.Concatenates [S1024x1, S1024x31] S1024x32 1
  slices_S1024x528_o0_1_S1024x2 : S1024x528.Slices ![0, 1] S1024x2
  concatenates_S1024x2_S1024x30_S1024x32_d1 : Shape.Concatenates [S1024x2, S1024x30] S1024x32 1
  slices_S1024x528_o0_3_S1024x3 : S1024x528.Slices ![0, 3] S1024x3
  concatenates_S1024x3_S1024x29_S1024x32_d1 : Shape.Concatenates [S1024x3, S1024x29] S1024x32 1
  slices_S1024x528_o0_6_S1024x4 : S1024x528.Slices ![0, 6] S1024x4
  concatenates_S1024x4_S1024x28_S1024x32_d1 : Shape.Concatenates [S1024x4, S1024x28] S1024x32 1
  slices_S1024x528_o0_10_S1024x5 : S1024x528.Slices ![0, 10] S1024x5
  concatenates_S1024x5_S1024x27_S1024x32_d1 : Shape.Concatenates [S1024x5, S1024x27] S1024x32 1
  slices_S1024x528_o0_15_S1024x6 : S1024x528.Slices ![0, 15] S1024x6
  concatenates_S1024x6_S1024x26_S1024x32_d1 : Shape.Concatenates [S1024x6, S1024x26] S1024x32 1
  slices_S1024x528_o0_21_S1024x7 : S1024x528.Slices ![0, 21] S1024x7
  concatenates_S1024x7_S1024x25_S1024x32_d1 : Shape.Concatenates [S1024x7, S1024x25] S1024x32 1
  slices_S1024x528_o0_28_S1024x8 : S1024x528.Slices ![0, 28] S1024x8
  concatenates_S1024x8_S1024x24_S1024x32_d1 : Shape.Concatenates [S1024x8, S1024x24] S1024x32 1
  slices_S1024x528_o0_36_S1024x9 : S1024x528.Slices ![0, 36] S1024x9
  concatenates_S1024x9_S1024x23_S1024x32_d1 : Shape.Concatenates [S1024x9, S1024x23] S1024x32 1
  slices_S1024x528_o0_45_S1024x10 : S1024x528.Slices ![0, 45] S1024x10
  concatenates_S1024x10_S1024x22_S1024x32_d1 : Shape.Concatenates [S1024x10, S1024x22] S1024x32 1
  slices_S1024x528_o0_55_S1024x11 : S1024x528.Slices ![0, 55] S1024x11
  concatenates_S1024x11_S1024x21_S1024x32_d1 : Shape.Concatenates [S1024x11, S1024x21] S1024x32 1
  slices_S1024x528_o0_66_S1024x12 : S1024x528.Slices ![0, 66] S1024x12
  concatenates_S1024x12_S1024x20_S1024x32_d1 : Shape.Concatenates [S1024x12, S1024x20] S1024x32 1
  slices_S1024x528_o0_78_S1024x13 : S1024x528.Slices ![0, 78] S1024x13
  concatenates_S1024x13_S1024x19_S1024x32_d1 : Shape.Concatenates [S1024x13, S1024x19] S1024x32 1
  slices_S1024x528_o0_91_S1024x14 : S1024x528.Slices ![0, 91] S1024x14
  concatenates_S1024x14_S1024x18_S1024x32_d1 : Shape.Concatenates [S1024x14, S1024x18] S1024x32 1
  slices_S1024x528_o0_105_S1024x15 : S1024x528.Slices ![0, 105] S1024x15
  concatenates_S1024x15_S1024x17_S1024x32_d1 : Shape.Concatenates [S1024x15, S1024x17] S1024x32 1
  slices_S1024x528_o0_120_S1024x16 : S1024x528.Slices ![0, 120] S1024x16
  concatenates_S1024x16_S1024x16_S1024x32_d1 : Shape.Concatenates [S1024x16, S1024x16] S1024x32 1
  slices_S1024x528_o0_136_S1024x17 : S1024x528.Slices ![0, 136] S1024x17
  concatenates_S1024x17_S1024x15_S1024x32_d1 : Shape.Concatenates [S1024x17, S1024x15] S1024x32 1
  slices_S1024x528_o0_153_S1024x18 : S1024x528.Slices ![0, 153] S1024x18
  concatenates_S1024x18_S1024x14_S1024x32_d1 : Shape.Concatenates [S1024x18, S1024x14] S1024x32 1
  slices_S1024x528_o0_171_S1024x19 : S1024x528.Slices ![0, 171] S1024x19
  concatenates_S1024x19_S1024x13_S1024x32_d1 : Shape.Concatenates [S1024x19, S1024x13] S1024x32 1
  slices_S1024x528_o0_190_S1024x20 : S1024x528.Slices ![0, 190] S1024x20
  concatenates_S1024x20_S1024x12_S1024x32_d1 : Shape.Concatenates [S1024x20, S1024x12] S1024x32 1
  slices_S1024x528_o0_210_S1024x21 : S1024x528.Slices ![0, 210] S1024x21
  concatenates_S1024x21_S1024x11_S1024x32_d1 : Shape.Concatenates [S1024x21, S1024x11] S1024x32 1
  slices_S1024x528_o0_231_S1024x22 : S1024x528.Slices ![0, 231] S1024x22
  concatenates_S1024x22_S1024x10_S1024x32_d1 : Shape.Concatenates [S1024x22, S1024x10] S1024x32 1
  slices_S1024x528_o0_253_S1024x23 : S1024x528.Slices ![0, 253] S1024x23
  concatenates_S1024x23_S1024x9_S1024x32_d1 : Shape.Concatenates [S1024x23, S1024x9] S1024x32 1
  slices_S1024x528_o0_276_S1024x24 : S1024x528.Slices ![0, 276] S1024x24
  concatenates_S1024x24_S1024x8_S1024x32_d1 : Shape.Concatenates [S1024x24, S1024x8] S1024x32 1
  slices_S1024x528_o0_300_S1024x25 : S1024x528.Slices ![0, 300] S1024x25
  concatenates_S1024x25_S1024x7_S1024x32_d1 : Shape.Concatenates [S1024x25, S1024x7] S1024x32 1
  slices_S1024x528_o0_325_S1024x26 : S1024x528.Slices ![0, 325] S1024x26
  concatenates_S1024x26_S1024x6_S1024x32_d1 : Shape.Concatenates [S1024x26, S1024x6] S1024x32 1
  slices_S1024x528_o0_351_S1024x27 : S1024x528.Slices ![0, 351] S1024x27
  concatenates_S1024x27_S1024x5_S1024x32_d1 : Shape.Concatenates [S1024x27, S1024x5] S1024x32 1
  slices_S1024x528_o0_378_S1024x28 : S1024x528.Slices ![0, 378] S1024x28
  concatenates_S1024x28_S1024x4_S1024x32_d1 : Shape.Concatenates [S1024x28, S1024x4] S1024x32 1
  slices_S1024x528_o0_406_S1024x29 : S1024x528.Slices ![0, 406] S1024x29
  concatenates_S1024x29_S1024x3_S1024x32_d1 : Shape.Concatenates [S1024x29, S1024x3] S1024x32 1
  slices_S1024x528_o0_435_S1024x30 : S1024x528.Slices ![0, 435] S1024x30
  concatenates_S1024x30_S1024x2_S1024x32_d1 : Shape.Concatenates [S1024x30, S1024x2] S1024x32 1
  slices_S1024x528_o0_465_S1024x31 : S1024x528.Slices ![0, 465] S1024x31
  concatenates_S1024x31_S1024x1_S1024x32_d1 : Shape.Concatenates [S1024x31, S1024x1] S1024x32 1
  slices_S1024x528_o0_496_S1024x32 : S1024x528.Slices ![0, 496] S1024x32
  shapeCasts_S1024x32_S1024x1x32 : S1024x32.ShapeCasts S1024x1x32
  concatenates_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x32x32_d1 : Shape.Concatenates [S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32, S1024x1x32] S1024x32x32 1
  iota_S1024x32x32_d1_w32 : S1024x32x32.Iotas .tc 32 [1]
  iota_S1024x32x32_d2_w32 : S1024x32x32.Iotas .tc 32 [2]
  inb_S1024x32x32_S1024x32x32_0_0_0 : ∀ a, (![0, 0, 0] : Fin 3 → Nat) a + S1024x32x32.size a ≤ S1024x32x32.size a
  h_S1024x32x32 : 0 < S1024x32x32.numel
  dot_S1024x512_S512x528_S1024x528_1_0_0_1_n_n_wf : DotDims.WF S1024x512 S512x528 S1024x528 [1] [0] [0] [1] [] []
  dot_S1024x32x32_S1024x32x32_S1024x32x32_2_2_1_1_0_0_wf : DotDims.WF S1024x32x32 S1024x32x32 S1024x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S528x512.size a ≤ S528x512.size a
  hwx0_1 : ∀ i : grid0.Coords, EltTy.bits .f32 = 32 ∨ (Rect.block (s := S528x512) S528x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x528.size a ≤ S1x528.size a
  hwx0_2 : ∀ i : grid0.Coords, EltTy.bits .f32 = 32 ∨ (Rect.block (s := S1x528) S1x528.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32x32.size a ≤ S65536x32x32.size a
  hwx0_3 : ∀ i : grid0.Coords, EltTy.bits .f32 = 32 ∨ (Rect.block (s := S65536x32x32) S1024x32x32.size (cc0_transform_3 i) (hinb0_3 i)).WholeWords (EltTy.packing .f32)

variable [Facts₀]

def dot_S1024x512_S512x528_S1024x528_1_0_0_1_n_n : DotDims S1024x512 S512x528 S1024x528 where
  lhsContracting := [1]
  rhsContracting := [0]
  lhsNonContracting := [0]
  rhsNonContracting := [1]
  lhsBatch := []
  rhsBatch := []
  wf := dot_S1024x512_S512x528_S1024x528_1_0_0_1_n_n_wf
def dot_S1024x32x32_S1024x32x32_S1024x32x32_2_2_1_1_0_0 : DotDims S1024x32x32 S1024x32x32 S1024x32x32 where
  lhsContracting := [2]
  rhsContracting := [2]
  lhsNonContracting := [1]
  rhsNonContracting := [1]
  lhsBatch := [0]
  rhsBatch := [0]
  wf := dot_S1024x32x32_S1024x32x32_S1024x32x32_2_2_1_1_0_0_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S528x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x528.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x32x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S528x512 : Shape := ⟨2, ![528, 512]⟩
abbrev S528 : Shape := ⟨1, ![528]⟩
abbrev S512x528 : Shape := ⟨2, ![512, 528]⟩
abbrev S65536x528 : Shape := ⟨2, ![65536, 528]⟩
abbrev S1x528 : Shape := ⟨2, ![1, 528]⟩
abbrev S_ : Shape := ⟨0, ![]⟩
abbrev S65536x32x32 : Shape := ⟨3, ![65536, 32, 32]⟩
abbrev S528x1 : Shape := ⟨2, ![528, 1]⟩
abbrev S528x2 : Shape := ⟨2, ![528, 2]⟩
abbrev S32x32 : Shape := ⟨2, ![32, 32]⟩
abbrev S1x32x32 : Shape := ⟨3, ![1, 32, 32]⟩

abbrev nBuf : Space → Nat
  | .hbm => 40
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S528x512, .f32⟩
  | .hbm, ⟨2, _⟩ => ⟨S528, .f32⟩
  | .hbm, ⟨3, _⟩ => ⟨S528, .i32⟩
  | .hbm, ⟨4, _⟩ => ⟨S528, .i1⟩
  | .hbm, ⟨5, _⟩ => ⟨S528, .i32⟩
  | .hbm, ⟨6, _⟩ => ⟨S528, .i1⟩
  | .hbm, ⟨7, _⟩ => ⟨S512x528, .f32⟩
  | .hbm, ⟨8, _⟩ => ⟨S65536x528, .f32⟩
  | .hbm, ⟨9, _⟩ => ⟨S1x528, .f32⟩
  | .hbm, ⟨10, _⟩ => ⟨S65536x528, .f32⟩
  | .hbm, ⟨11, _⟩ => ⟨S65536x528, .f32⟩
  | .hbm, ⟨12, _⟩ => ⟨S_, .f32⟩
  | .hbm, ⟨13, _⟩ => ⟨S65536x32x32, .f32⟩
  | .hbm, ⟨14, _⟩ => ⟨S_, .i32⟩
  | .hbm, ⟨15, _⟩ => ⟨S528, .i32⟩
  | .hbm, ⟨16, _⟩ => ⟨S528, .i32⟩
  | .hbm, ⟨17, _⟩ => ⟨S528, .i32⟩
  | .hbm, ⟨18, _⟩ => ⟨S_, .i32⟩
  | .hbm, ⟨19, _⟩ => ⟨S528, .i32⟩
  | .hbm, ⟨20, _⟩ => ⟨S528, .i32⟩
  | .hbm, ⟨21, _⟩ => ⟨S528, .i32⟩
  | .hbm, ⟨22, _⟩ => ⟨S528x1, .i32⟩
  | .hbm, ⟨23, _⟩ => ⟨S528x1, .i32⟩
  | .hbm, ⟨24, _⟩ => ⟨S528x2, .i32⟩
  | .hbm, ⟨25, _⟩ => ⟨S65536x32x32, .f32⟩
  | .hbm, ⟨26, _⟩ => ⟨S65536x32x32, .f32⟩
  | .hbm, ⟨27, _⟩ => ⟨S32x32, .i32⟩
  | .hbm, ⟨28, _⟩ => ⟨S32x32, .i32⟩
  | .hbm, ⟨29, _⟩ => ⟨S_, .i32⟩
  | .hbm, ⟨30, _⟩ => ⟨S32x32, .i32⟩
  | .hbm, ⟨31, _⟩ => ⟨S32x32, .i32⟩
  | .hbm, ⟨32, _⟩ => ⟨S32x32, .i1⟩
  | .hbm, ⟨33, _⟩ => ⟨S32x32, .f32⟩
  | .hbm, ⟨34, _⟩ => ⟨S_, .f32⟩
  | .hbm, ⟨35, _⟩ => ⟨S32x32, .f32⟩
  | .hbm, ⟨36, _⟩ => ⟨S32x32, .f32⟩
  | .hbm, ⟨37, _⟩ => ⟨S1x32x32, .f32⟩
  | .hbm, ⟨38, _⟩ => ⟨S65536x32x32, .f32⟩
  | .hbm, ⟨39, _⟩ => ⟨S65536x32x32, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  transposes_S528x512_S512x528_1_0 : S528x512.Transposes [1, 0] S512x528
  bcast_S528_S1x528_1 : S528.BroadcastsInDim S1x528 (![1] : Fin 1 → Fin S1x528.rank)
  bcast_S1x528_S65536x528_0_1 : S1x528.BroadcastsInDim S65536x528 (![0, 1] : Fin 2 → Fin S65536x528.rank)
  bcast_S_S65536x32x32 : S_.BroadcastsInDim S65536x32x32 (![] : Fin 0 → Fin S65536x32x32.rank)
  bcast_S_S528 : S_.BroadcastsInDim S528 (![] : Fin 0 → Fin S528.rank)
  bcast_S528_S528x1_0 : S528.BroadcastsInDim S528x1 (![0] : Fin 1 → Fin S528x1.rank)
  concatenates_S528x1_S528x1_S528x2_d1 : Shape.Concatenates [S528x1, S528x1] S528x2 1
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S65536x32x32_0_1_2 : S1x32x32.BroadcastsInDim S65536x32x32 (![0, 1, 2] : Fin 3 → Fin S65536x32x32.rank)
  dot_S65536x512_S512x528_S65536x528_1_0_0_1_n_n_wf : DotDims.WF S65536x512 S512x528 S65536x528 [1] [0] [0] [1] [] []
  scatter_S65536x32x32_S528x2_S65536x528_0_12_12_1_wf : ScatterDims.WF S65536x32x32 S528x2 S65536x528 [0] [1, 2] [1, 2] 1
  dot_S65536x32x32_S65536x32x32_S65536x32x32_2_2_1_1_0_0_wf : DotDims.WF S65536x32x32 S65536x32x32 S65536x32x32 [2] [2] [1] [1] [0] [0]

variable [Facts₀]

def dot_S65536x512_S512x528_S65536x528_1_0_0_1_n_n : DotDims S65536x512 S512x528 S65536x528 where
  lhsContracting := [1]
  rhsContracting := [0]
  lhsNonContracting := [0]
  rhsNonContracting := [1]
  lhsBatch := []
  rhsBatch := []
  wf := dot_S65536x512_S512x528_S65536x528_1_0_0_1_n_n_wf
def scatter_S65536x32x32_S528x2_S65536x528_0_12_12_1 : ScatterDims S65536x32x32 S528x2 S65536x528 where
  updateWindowDims := [0]
  insertedWindowDims := [1, 2]
  scatterDimsToOperandDims := [1, 2]
  indexVectorDim := 1
  wf := scatter_S65536x32x32_S528x2_S65536x528_0_12_12_1_wf
def dot_S65536x32x32_S65536x32x32_S65536x32x32_2_2_1_1_0_0 : DotDims S65536x32x32 S65536x32x32 S65536x32x32 where
  lhsContracting := [2]
  rhsContracting := [2]
  lhsNonContracting := [1]
  rhsNonContracting := [1]
  lhsBatch := [0]
  rhsBatch := [0]
  wf := dot_S65536x32x32_S65536x32x32_S65536x32x32_2_2_1_1_0_0_wf

class Facts : Prop extends Facts₀ where

variable [Facts]
-- ==== Proof.Spec.lean ====
/-
  The function both programs compute, one batch row at a time.

  A row of the input, `xr : Fin 512 → EReal`, goes through the linear layer: `lin xr W b s = (∑ d, xr d · W s d) + b s`
  for each of the 528 packed positions `s`.  The packed vector is the lower triangle of a 32 × 32 matrix laid out row by
  row: row `i` holds columns `0 … i` at the positions `i (i + 1) / 2 … i (i + 1) / 2 + i`; `tril y i k` is that matrix,
  zero above the diagonal.  The result is its Gram matrix plus a constant on the diagonal:
  `gram L i j = (∑ k, L i k · L j k) + (if i = j then eps else 0)`.

  Only commutativity and associativity of the sums are ever used to identify the two programs with this function, so
  nothing here needs the entries to be finite.
-/
import Idealize.ShloMosaic.PureOps.Ideal
import Idealize.ShloMosaic.Lib.ValueIdx

noncomputable section

open scoped BigOperators

namespace Cert.Spec

open Idealize.ShloMosaic Idealize.ShloMosaic.ValueIdx

/-- The constant added on the diagonal: the binary32 value nearest to 1e-4, as both programs spell it. -/
def eps : EReal := Ideal.ofBits .f32 0x38D1B717#32

/-- The packed position of entry `(i, k)` of the lower triangle, `k ≤ i`, is below 528. -/
theorem trilPos_lt (i k : Fin 32) (h : k.val ≤ i.val) : i.val * (i.val + 1) / 2 + k.val < 528 := by
  have hi : i.val ≤ 31 := by omega
  have h1 : i.val * (i.val + 1) ≤ 31 * 32 := Nat.mul_le_mul hi (by omega)
  have h2 : i.val * (i.val + 1) / 2 ≤ 31 * 32 / 2 := Nat.div_le_div_right h1
  omega

/-- The packed position of entry `(i, k)` of the lower triangle. -/
def trilPos (i k : Fin 32) (h : k.val ≤ i.val) : Fin 528 := ⟨i.val * (i.val + 1) / 2 + k.val, trilPos_lt i k h⟩

/-- The linear layer on one row: `(∑ d, xr d · W s d) + b s`. -/
def lin (xr : Fin 512 → EReal) (W : Fin 528 → Fin 512 → EReal) (b : Fin 528 → EReal) (s : Fin 528) : EReal :=
  (∑ d : Fin 512, xr d * W s d) + b s

/-- The packed vector `y` unpacked into a lower-triangular 32 × 32 matrix: zero above the diagonal. -/
def tril (y : Fin 528 → EReal) (i k : Fin 32) : EReal :=
  if h : k.val ≤ i.val then y (trilPos i k h) else 0

/-- The Gram matrix of the rows of `L`, plus `eps` on the diagonal. -/
def gram (L : Fin 32 → Fin 32 → EReal) (i j : Fin 32) : EReal :=
  (∑ k : Fin 32, L i k * L j k) + (if i = j then eps else 0)

/-- One batch row of the result. -/
def covRow (xr : Fin 512 → EReal) (W : Fin 528 → Fin 512 → EReal) (b : Fin 528 → EReal) (i j : Fin 32) : EReal :=
  gram (tril (lin xr W b)) i j

/-- The whole result by coordinates: batch row `n`, entry `(i, j)`. -/
def Gc (x : (⟨2, ![65536, 512]⟩ : Shape).Idx → EReal) (W : (⟨2, ![528, 512]⟩ : Shape).Idx → EReal)
    (b : (⟨1, ![528]⟩ : Shape).Idx → EReal) (n : Fin 65536) (i j : Fin 32) : EReal :=
  covRow (fun d => x (ix2 n d)) (fun s d => W (ix2 s d)) (fun s => b (ix1 s)) i j

/-- The whole result as one array function of the three argument arrays. -/
def G (x : (⟨2, ![65536, 512]⟩ : Shape).Idx → EReal) (W : (⟨2, ![528, 512]⟩ : Shape).Idx → EReal)
    (b : (⟨1, ![528]⟩ : Shape).Idx → EReal) : (⟨3, ![65536, 32, 32]⟩ : Shape).Idx → EReal :=
  fun q => Gc x W b (q 0) (q 1) (q 2)

theorem G_ix3 (x : (⟨2, ![65536, 512]⟩ : Shape).Idx → EReal) (W : (⟨2, ![528, 512]⟩ : Shape).Idx → EReal)
    (b : (⟨1, ![528]⟩ : Shape).Idx → EReal) (n : Fin 65536) (i j : Fin 32) :
    G x W b (ix3 n i j) = Gc x W b n i j := rfl

end Cert.Spec

end
-- ==== Proof.KerLinear.lean ====
/-
  The kernel's linear layer on a block of 1024 rows, read at one entry: the matrix product into a zero accumulator is
  the plain sum over the 512 inputs, the transposed weight read back at `(s, d)`, the bias row broadcast over the rows.
-/
import proofs.«110930_j79723182948721_1_alg».proof.Proof.Gen.KernelIdeal.Skeleton
import proofs.«110930_j79723182948721_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerLinear
open Cert.KernelIdeal Cert.KernelIdeal.Gen Idealize.ShloMosaic Idealize.ShloMosaic.TcCoe Idealize.ShloMosaic.ValueIdx

/-! ## The operand indices of the product, axis by axis

  The product contracts the left operand's axis 1 with the right operand's axis 0. At the result entry `j` and the
  contraction position `k` the left operand is read at `(j 0, k)` and the right operand at `(k, j 1)`. -/

/-- The left operand's row is the result's row. -/
private theorem lhs_row (j : S1024x528.Idx) (k : dot_S1024x512_S512x528_S1024x528_1_0_0_1_n_n.contr.Idx) :
    (dot_S1024x512_S512x528_S1024x528_1_0_0_1_n_n.lhsIdx j k 0).val = (j 0).val := rfl

/-- The left operand's column is the contraction position. -/
private theorem lhs_col (j : S1024x528.Idx) (k : dot_S1024x512_S512x528_S1024x528_1_0_0_1_n_n.contr.Idx) :
    (dot_S1024x512_S512x528_S1024x528_1_0_0_1_n_n.lhsIdx j k 1).val = (k ⟨0, Nat.one_pos⟩).val :=
  dot_S1024x512_S512x528_S1024x528_1_0_0_1_n_n.lhsIdx_val_of_single rfl j k

/-- The right operand's row is the contraction position. -/
private theorem rhs_row (j : S1024x528.Idx) (k : dot_S1024x512_S512x528_S1024x528_1_0_0_1_n_n.contr.Idx) :
    (dot_S1024x512_S512x528_S1024x528_1_0_0_1_n_n.rhsIdx j k 0).val = (k ⟨0, Nat.one_pos⟩).val :=
  dot_S1024x512_S512x528_S1024x528_1_0_0_1_n_n.rhsIdx_val_of_single rfl j k

/-- The right operand's column is the result's column. -/
private theorem rhs_col (j : S1024x528.Idx) (k : dot_S1024x512_S512x528_S1024x528_1_0_0_1_n_n.contr.Idx) :
    (dot_S1024x512_S512x528_S1024x528_1_0_0_1_n_n.rhsIdx j k 1).val = (j 1).val := rfl

/-- Entry `(r, s)` of the block's linear layer is the row's `lin`. -/
theorem pay2_apply (v0 : Vec Ideal S1024x512 .f32) (v2 : Vec Ideal S528x512 .f32) (v6 : Vec Ideal S1x528 .f32)
    (r : Fin 1024) (s : Fin 528) :
    k0_pay2 v0 v2 v6 (ix2 r s)
      = Cert.Spec.lin (fun d => v0 (ix2 r d)) (fun s d => v2 (ix2 s d)) (fun s => v6 (ix2 0 s)) s := by
  unfold k0_pay2
  dsimp only
  rw [addf_apply, shapeCast_self, broadcastTo_1b_ab_apply]
  show FloatOps.matmul _ _ _ _ _ _ + _ = _
  rw [Ideal.matmul_constant_zero_apply]
  unfold Cert.Spec.lin
  refine congrArg (· + v6 (ix2 0 s)) ?_
  -- the sum over the one-axis contraction index is the sum over its coordinate
  rw [← Equiv.sum_comp (contrEquiv1 dot_S1024x512_S512x528_S1024x528_1_0_0_1_n_n 512 rfl rfl).symm]
  refine Finset.sum_congr rfl fun d _ => ?_
  have hk : (((contrEquiv1 dot_S1024x512_S512x528_S1024x528_1_0_0_1_n_n 512 rfl rfl).symm d) ⟨0, Nat.one_pos⟩).val = d.val :=
    contrEquiv1_symm_val dot_S1024x512_S512x528_S1024x528_1_0_0_1_n_n 512 rfl rfl d
  -- the left operand is read at `(r, d)`, the right operand at `(d, s)`
  have hl : dot_S1024x512_S512x528_S1024x528_1_0_0_1_n_n.lhsIdx (ix2 r s)
      ((contrEquiv1 dot_S1024x512_S512x528_S1024x528_1_0_0_1_n_n 512 rfl rfl).symm d) = ix2 r d :=
    Shape.idx_ext₂ (lhs_row _ _) ((lhs_col _ _).trans hk)
  have hr : dot_S1024x512_S512x528_S1024x528_1_0_0_1_n_n.rhsIdx (ix2 r s)
      ((contrEquiv1 dot_S1024x512_S512x528_S1024x528_1_0_0_1_n_n 512 rfl rfl).symm d) = ix2 d s :=
    Shape.idx_ext₂ ((rhs_row _ _).trans hk) (rhs_col _ _)
  rw [hl, hr, truncf_apply]
  -- the transposed weight at `(d, s)` is the weight at `(s, d)`
  exact congrArg (v0 (ix2 r d) * ·) (transpose_apply [1, 0] _ transposes_S528x512_p1_0_S512x528 (ix2 d s) (ix2 s d)
    (fun b => match b with | ⟨0, _⟩ => rfl | ⟨1, _⟩ => rfl))

end Cert.KernelIdeal.KerLinear

end
-- ==== Proof.KerGram.lean ====
/-
  The batched product of a block of 32 × 32 matrices with their transposes, read at one entry: a sum over the 32
  columns of the products of two rows' entries; and the diagonal constant: the two index vectors agree exactly on the
  diagonal, where the literal is selected, zero elsewhere.
-/
import proofs.«110930_j79723182948721_1_alg».proof.Proof.Gen.KernelIdeal.Skeleton
import proofs.«110930_j79723182948721_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.KerGram
open Cert.KernelIdeal Cert.KernelIdeal.Gen Idealize.ShloMosaic Idealize.ShloMosaic.TcCoe Idealize.ShloMosaic.ValueIdx

/-- The one coordinate of a contraction index built from `k` is `k`. -/
private theorem gram_contr_val (k : Fin 32) :
    (((contrEquiv1 dot_S1024x32x32_S1024x32x32_S1024x32x32_2_2_1_1_0_0 32 rfl rfl).symm k) ⟨0, by decide⟩ : ℕ) = k.val :=
  contrEquiv1_symm_val dot_S1024x32x32_S1024x32x32_S1024x32x32_2_2_1_1_0_0 32 rfl rfl k

/-- The left operand is read at batch `r`, row `i` (the result's row), column `k` (the contracted coordinate). -/
private theorem gram_lhsIdx (r : Fin 1024) (i j k : Fin 32) :
    dot_S1024x32x32_S1024x32x32_S1024x32x32_2_2_1_1_0_0.lhsIdx (ix3 r i j)
        ((contrEquiv1 dot_S1024x32x32_S1024x32x32_S1024x32x32_2_2_1_1_0_0 32 rfl rfl).symm k) = ix3 r i k := by
  funext ax; apply Fin.ext
  match ax with
  | ⟨0, _⟩ => simp [DotDims.lhsIdx, dot_S1024x32x32_S1024x32x32_S1024x32x32_2_2_1_1_0_0]; rfl
  | ⟨1, _⟩ => simp [DotDims.lhsIdx, dot_S1024x32x32_S1024x32x32_S1024x32x32_2_2_1_1_0_0]; rfl
  | ⟨2, _⟩ => simp [DotDims.lhsIdx, dot_S1024x32x32_S1024x32x32_S1024x32x32_2_2_1_1_0_0]; exact gram_contr_val k

/-- The right operand is read at batch `r`, row `j` (the result's column), column `k`. -/
private theorem gram_rhsIdx (r : Fin 1024) (i j k : Fin 32) :
    dot_S1024x32x32_S1024x32x32_S1024x32x32_2_2_1_1_0_0.rhsIdx (ix3 r i j)
        ((contrEquiv1 dot_S1024x32x32_S1024x32x32_S1024x32x32_2_2_1_1_0_0 32 rfl rfl).symm k) = ix3 r j k := by
  funext ax; apply Fin.ext
  match ax with
  | ⟨0, _⟩ => simp [DotDims.rhsIdx, dot_S1024x32x32_S1024x32x32_S1024x32x32_2_2_1_1_0_0]; rfl
  | ⟨1, _⟩ => simp [DotDims.rhsIdx, dot_S1024x32x32_S1024x32x32_S1024x32x32_2_2_1_1_0_0]; rfl
  | ⟨2, _⟩ => simp [DotDims.rhsIdx, dot_S1024x32x32_S1024x32x32_S1024x32x32_2_2_1_1_0_0]; exact gram_contr_val k

/-- Entry `(r, i, j)` of the batched product `L · Lᵀ` into a zero accumulator: the sum over `k` of `L r i k · L r j k`. -/
theorem gram_apply (Lv : FVec Ideal S1024x32x32 .f32) (r : Fin 1024) (i j : Fin 32) :
    matmul dot_S1024x32x32_S1024x32x32_S1024x32x32_2_2_1_1_0_0 none (truncf .bf16 Lv bitsLt_bf16_f32)
        (truncf .bf16 Lv bitsLt_bf16_f32) (constant S1024x32x32 .f32 0x00000000#32) (ix3 r i j)
      = ∑ k : Fin 32, Lv (ix3 r i k) * Lv (ix3 r j k) := by
  simp only [matmul]
  rw [Ideal.matmul_constant_zero_apply,
    ← Equiv.sum_comp (contrEquiv1 dot_S1024x32x32_S1024x32x32_S1024x32x32_2_2_1_1_0_0 32 rfl rfl).symm]
  refine Finset.sum_congr rfl fun k _ => ?_
  rw [truncf_apply, truncf_apply, gram_lhsIdx, gram_rhsIdx]

/-- Two coordinates below 32 with the same 32-bit word are equal. -/
private theorem word_inj (i j : Fin 32) (h : BitVec.ofNat 32 i.val = BitVec.ofNat 32 j.val) : i = j := by
  have ht := congrArg BitVec.toNat h
  simp only [BitVec.toNat_ofNat] at ht
  have hi := i.isLt
  have hj := j.isLt
  apply Fin.ext
  omega

/-- The last payload adds the literal on the diagonal and zero off it. -/
theorem pay1_apply (v138 : FVec Ideal S1024x32x32 .f32) (r : Fin 1024) (i j : Fin 32) :
    k0_pay1 v138 (iota .tc S1024x32x32 32 [1] iota_S1024x32x32_d1_w32) (ix3 r i j)
      = v138 (ix3 r i j) + (if i = j then Cert.Spec.eps else 0) := by
  show v138 (ix3 r i j)
      + Scalar.select (IntOp.cmpi .eq (iota .tc S1024x32x32 32 [1] iota_S1024x32x32_d1_w32 (ix3 r i j))
          (iota .tc S1024x32x32 32 [2] iota_S1024x32x32_d2_w32 (ix3 r i j)))
        (Ideal.ofBits .f32 0x38D1B717#32) (Ideal.ofBits .f32 0x00000000#32) = _
  rw [iota_single_apply, iota_single_apply]
  show v138 (ix3 r i j)
      + Scalar.select (IntOp.cmpi .eq (BitVec.ofNat 32 i.val) (BitVec.ofNat 32 j.val))
        (Ideal.ofBits .f32 0x38D1B717#32) (Ideal.ofBits .f32 0x00000000#32) = _
  by_cases h : i = j
  · subst h
    rw [IntOp.cmpi_eq.2 rfl, select_one, if_pos rfl]
    rfl
  · have hne : ¬ IntOp.cmpi .eq (BitVec.ofNat 32 i.val) (BitVec.ofNat 32 j.val) = 1#1 := fun hc =>
      h (word_inj i j (IntOp.cmpi_eq.1 hc))
    rw [eq_zero_of_ne_one hne, select_zero, if_neg h, Ideal.ofBits_zero_f32]

end Cert.KernelIdeal.KerGram

end
-- ==== Proof.KerPad.lean ====
/-
  One row of the triangle as the kernel builds it: a slice of the packed vector of width `w` starting at column `o`,
  followed by `p` copies of a constant. Read at column `k` it is the packed entry `o + k` when `k < w` and the constant
  otherwise.
-/
import proofs.«110930_j79723182948721_1_alg».proof.Proof.Gen.KernelIdeal.Skeleton
import proofs.«110930_j79723182948721_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.KerPad
open Cert.KernelIdeal Cert.KernelIdeal.Gen Idealize.ShloMosaic Idealize.ShloMosaic.TcCoe Idealize.ShloMosaic.ValueIdx

/-- The two widths of a concatenation to width 32 along the columns add up to 32. -/
private theorem widths_sum (w p : Nat)
    (hc : Shape.Concatenates [(⟨2, ![1024, w]⟩ : Shape), (⟨2, ![1024, p]⟩ : Shape)] S1024x32 1) : w + p = 32 := by
  have e : w + (p + 0) = 32 := hc.2.2
  omega

/-- A slice of width `w` from column `o` padded to width 32 by a constant, read at `(r, k)`. -/
theorem padRow_apply (o w p : Nat) (how : o + w ≤ 528) (y : FVec Ideal S1024x528 .f32)
    (hs : S1024x528.Slices ![0, o] (⟨2, ![1024, w]⟩ : Shape))
    (hc : Shape.Concatenates [(⟨2, ![1024, w]⟩ : Shape), (⟨2, ![1024, p]⟩ : Shape)] S1024x32 1) (c0 : Ideal .f32)
    (r : Fin 1024) (k : Fin 32) :
    concatenate S1024x32 1 [⟨(⟨2, ![1024, w]⟩ : Shape), extractStridedSlice (⟨2, ![1024, w]⟩ : Shape) ![0, o] y hs⟩,
        ⟨(⟨2, ![1024, p]⟩ : Shape), broadcast (⟨2, ![1024, p]⟩ : Shape) c0⟩] hc (ix2 r k)
      = if h : k.val < w then y (ix2 r ⟨o + k.val, by omega⟩) else c0 := by
  have hwp : w + p = 32 := widths_sum w p hc
  have hk : k.val < 32 := k.isLt
  by_cases h : k.val < w
  · rw [dif_pos h]
    refine (concatenate_pair_apply_left (t := S1024x32) (s₁ := ⟨2, ![1024, w]⟩) (s₂ := ⟨2, ![1024, p]⟩) (1 : Fin 2) _ _ hc _ rfl
      (ix2 r (⟨k.val, h⟩ : Fin w)) (by
        intro b
        match b with
        | ⟨0, _⟩ => rfl
        | ⟨1, _⟩ => rfl)).trans ?_
    exact extractStridedSlice_apply _ y hs (ix2 r (⟨k.val, h⟩ : Fin w)) (ix2 r (⟨o + k.val, by omega⟩ : Fin 528)) (by
      intro a
      match a with
      | ⟨0, _⟩ => show r.val = 0 + r.val; omega
      | ⟨1, _⟩ => rfl)
  · rw [dif_neg h]
    refine (concatenate_pair_apply_right (t := S1024x32) (s₁ := ⟨2, ![1024, w]⟩) (s₂ := ⟨2, ![1024, p]⟩) (1 : Fin 2) _ _ hc _ rfl rfl
      (ix2 r (⟨k.val - w, by omega⟩ : Fin p)) (by
        intro b hb
        match b with
        | ⟨0, _⟩ => rfl
        | ⟨1, _⟩ => exact absurd rfl hb) (by
        show k.val - w + w = k.val; omega)).trans ?_
    rfl

/-- The last row is a bare slice of width 32. -/
theorem slice32_apply (o : Nat) (how : o + 32 ≤ 528) (y : FVec Ideal S1024x528 .f32)
    (hs : S1024x528.Slices ![0, o] S1024x32) (r : Fin 1024) (k : Fin 32) :
    extractStridedSlice S1024x32 ![0, o] y hs (ix2 r k) = y (ix2 r ⟨o + k.val, by omega⟩) := by
  exact extractStridedSlice_apply _ y hs (ix2 r k) (ix2 r (⟨o + k.val, by omega⟩ : Fin 528)) (by
    intro a
    match a with
    | ⟨0, _⟩ => show r.val = 0 + r.val; omega
    | ⟨1, _⟩ => rfl)

/-- The padding constant the kernel writes is zero. -/
theorem zero_eq : (Scalar.ofBits .f32 0x00000000#32 : Ideal .f32) = 0 := by
  show Ideal.ofBits .f32 0x00000000#32 = 0
  exact Idealize.ShloMosaic.Ideal.ofBits_zero_f32

end Cert.KernelIdeal.KerPad

end
-- ==== Proof.KerRows.lean ====
/-
  The rows of the triangle as the kernel builds them. Row `i` (`i` from 0 to 24) is the slice of the packed vector of
  width `i + 1` that starts at column `i (i + 1) / 2`, followed by `31 - i` zeros. Read at column `k` it is the packed
  entry `i (i + 1) / 2 + k` when `k ≤ i` and zero otherwise: entry `(i, k)` of the lower-triangular matrix the
  specification unpacks the vector into.
-/
import proofs.«110930_j79723182948721_1_alg».proof.Proof.Gen.KernelIdeal.Skeleton
import proofs.«110930_j79723182948721_1_alg».proof.Proof.Spec
import proofs.«110930_j79723182948721_1_alg».proof.Proof.KerPad
import Idealize.ShloMosaic.Lib.ValueIdx
import Idealize.ShloMosaic.Lib.Pipeline.Value
import Idealize.ShloMosaic.PureOps.Ideal.Laws

noncomputable section

open scoped BigOperators

namespace Cert.KernelIdeal.KerRows
open Cert.KernelIdeal Cert.KernelIdeal.Gen Idealize.ShloMosaic Idealize.ShloMosaic.TcCoe Idealize.ShloMosaic.ValueIdx

/-- A slice of width `w = i + 1` from column `o = i (i + 1) / 2`, padded with zeros to width 32, is row `i` of the
    unpacked triangle: below or on the diagonal (`k ≤ i`, that is `k < w`) both sides read the packed entry `o + k`,
    above it both are zero. -/
private theorem row_apply (i : Fin 32) (o w p : Nat) (ho : i.val * (i.val + 1) / 2 = o) (hw : w = i.val + 1)
    (how : o + w ≤ 528) (y : FVec Ideal S1024x528 .f32)
    (hs : S1024x528.Slices ![0, o] (⟨2, ![1024, w]⟩ : Shape))
    (hc : Shape.Concatenates [(⟨2, ![1024, w]⟩ : Shape), (⟨2, ![1024, p]⟩ : Shape)] S1024x32 1)
    (r : Fin 1024) (k : Fin 32) :
    concatenate S1024x32 1 [⟨(⟨2, ![1024, w]⟩ : Shape), extractStridedSlice (⟨2, ![1024, w]⟩ : Shape) ![0, o] y hs⟩,
        ⟨(⟨2, ![1024, p]⟩ : Shape),
          broadcast (⟨2, ![1024, p]⟩ : Shape) (Scalar.ofBits .f32 0x00000000#32 : Ideal .f32)⟩] hc (ix2 r k)
      = Cert.Spec.tril (fun s => y (ix2 r s)) i k := by
  rw [KerPad.padRow_apply o w p how y hs hc _ r k]
  unfold Cert.Spec.tril Cert.Spec.trilPos
  by_cases h : k.val < w
  · have h' : k.val ≤ i.val := by omega
    rw [dif_pos h, dif_pos h']
    exact congrArg (fun s : Fin 528 => y (ix2 r s)) (Fin.ext (by show o + k.val = i.val * (i.val + 1) / 2 + k.val; omega))
  · have h' : ¬ k.val ≤ i.val := by omega
    rw [dif_neg h, dif_neg h']
    exact KerPad.zero_eq

/-- Row 0: the packed entry 0, then 31 zeros. -/
theorem pay3_apply (v0 : Vec Ideal S1024x512 .f32) (v2 : Vec Ideal S528x512 .f32) (v6 : Vec Ideal S1x528 .f32) (r : Fin 1024) (k : Fin 32) :
    k0_pay3 v0 v2 v6 (ix2 r k) = Cert.Spec.tril (fun s => k0_pay2 v0 v2 v6 (ix2 r s)) 0 k :=
  row_apply 0 0 1 31 rfl rfl (by omega) (k0_pay2 v0 v2 v6) slices_S1024x528_o0_0_S1024x1
    concatenates_S1024x1_S1024x31_S1024x32_d1 r k

/-- Row 1: the packed entries 1 and 2, then 30 zeros. -/
theorem pay4_apply (v0 : Vec Ideal S1024x512 .f32) (v2 : Vec Ideal S528x512 .f32) (v6 : Vec Ideal S1x528 .f32) (r : Fin 1024) (k : Fin 32) :
    k0_pay4 v0 v2 v6 (ix2 r k) = Cert.Spec.tril (fun s => k0_pay2 v0 v2 v6 (ix2 r s)) 1 k :=
  row_apply 1 1 2 30 rfl rfl (by omega) (k0_pay2 v0 v2 v6) slices_S1024x528_o0_1_S1024x2
    concatenates_S1024x2_S1024x30_S1024x32_d1 r k

/-- Row 2: the packed entries 3 to 5, then 29 zeros. -/
theorem pay5_apply (v0 : Vec Ideal S1024x512 .f32) (v2 : Vec Ideal S528x512 .f32) (v6 : Vec Ideal S1x528 .f32) (r : Fin 1024) (k : Fin 32) :
    k0_pay5 v0 v2 v6 (ix2 r k) = Cert.Spec.tril (fun s => k0_pay2 v0 v2 v6 (ix2 r s)) 2 k :=
  row_apply 2 3 3 29 rfl rfl (by omega) (k0_pay2 v0 v2 v6) slices_S1024x528_o0_3_S1024x3
    concatenates_S1024x3_S1024x29_S1024x32_d1 r k

/-- Row 3: the packed entries 6 to 9, then 28 zeros. -/
theorem pay6_apply (v0 : Vec Ideal S1024x512 .f32) (v2 : Vec Ideal S528x512 .f32) (v6 : Vec Ideal S1x528 .f32) (r : Fin 1024) (k : Fin 32) :
    k0_pay6 v0 v2 v6 (ix2 r k) = Cert.Spec.tril (fun s => k0_pay2 v0 v2 v6 (ix2 r s)) 3 k :=
  row_apply 3 6 4 28 rfl rfl (by omega) (k0_pay2 v0 v2 v6) slices_S1024x528_o0_6_S1024x4
    concatenates_S1024x4_S1024x28_S1024x32_d1 r k

/-- Row 4: the packed entries 10 to 14, then 27 zeros. -/
theorem pay7_apply (v0 : Vec Ideal S1024x512 .f32) (v2 : Vec Ideal S528x512 .f32) (v6 : Vec Ideal S1x528 .f32) (r : Fin 1024) (k : Fin 32) :
    k0_pay7 v0 v2 v6 (ix2 r k) = Cert.Spec.tril (fun s => k0_pay2 v0 v2 v6 (ix2 r s)) 4 k :=
  row_apply 4 10 5 27 rfl rfl (by omega) (k0_pay2 v0 v2 v6) slices_S1024x528_o0_10_S1024x5
    concatenates_S1024x5_S1024x27_S1024x32_d1 r k

/-- Row 5: the packed entries 15 to 20, then 26 zeros. -/
theorem pay8_apply (v0 : Vec Ideal S1024x512 .f32) (v2 : Vec Ideal S528x512 .f32) (v6 : Vec Ideal S1x528 .f32) (r : Fin 1024) (k : Fin 32) :
    k0_pay8 v0 v2 v6 (ix2 r k) = Cert.Spec.tril (fun s => k0_pay2 v0 v2 v6 (ix2 r s)) 5 k :=
  row_apply 5 15 6 26 rfl rfl (by omega) (k0_pay2 v0 v2 v6) slices_S1024x528_o0_15_S1024x6
    concatenates_S1024x6_S1024x26_S1024x32_d1 r k

/-- Row 6: the packed entries 21 to 27, then 25 zeros. -/
theorem pay9_apply (v0 : Vec Ideal S1024x512 .f32) (v2 : Vec Ideal S528x512 .f32) (v6 : Vec Ideal S1x528 .f32) (r : Fin 1024) (k : Fin 32) :
    k0_pay9 v0 v2 v6 (ix2 r k) = Cert.Spec.tril (fun s => k0_pay2 v0 v2 v6 (ix2 r s)) 6 k :=
  row_apply 6 21 7 25 rfl rfl (by omega) (k0_pay2 v0 v2 v6) slices_S1024x528_o0_21_S1024x7
    concatenates_S1024x7_S1024x25_S1024x32_d1 r k

/-- Row 7: the packed entries 28 to 35, then 24 zeros. -/
theorem pay10_apply (v0 : Vec Ideal S1024x512 .f32) (v2 : Vec Ideal S528x512 .f32) (v6 : Vec Ideal S1x528 .f32) (r : Fin 1024) (k : Fin 32) :
    k0_pay10 v0 v2 v6 (ix2 r k) = Cert.Spec.tril (fun s => k0_pay2 v0 v2 v6 (ix2 r s)) 7 k :=
  row_apply 7 28 8 24 rfl rfl (by omega) (k0_pay2 v0 v2 v6) slices_S1024x528_o0_28_S1024x8
    concatenates_S1024x8_S1024x24_S1024x32_d1 r k

/-- Row 8: the packed entries 36 to 44, then 23 zeros. -/
theorem pay11_apply (v0 : Vec Ideal S1024x512 .f32) (v2 : Vec Ideal S528x512 .f32) (v6 : Vec Ideal S1x528 .f32) (r : Fin 1024) (k : Fin 32) :
    k0_pay11 v0 v2 v6 (ix2 r k) = Cert.Spec.tril (fun s => k0_pay2 v0 v2 v6 (ix2 r s)) 8 k :=
  row_apply 8 36 9 23 rfl rfl (by omega) (k0_pay2 v0 v2 v6) slices_S1024x528_o0_36_S1024x9
    concatenates_S1024x9_S1024x23_S1024x32_d1 r k

/-- Row 9: the packed entries 45 to 54, then 22 zeros. -/
theorem pay12_apply (v0 : Vec Ideal S1024x512 .f32) (v2 : Vec Ideal S528x512 .f32) (v6 : Vec Ideal S1x528 .f32) (r : Fin 1024) (k : Fin 32) :
    k0_pay12 v0 v2 v6 (ix2 r k) = Cert.Spec.tril (fun s => k0_pay2 v0 v2 v6 (ix2 r s)) 9 k :=
  row_apply 9 45 10 22 rfl rfl (by omega) (k0_pay2 v0 v2 v6) slices_S1024x528_o0_45_S1024x10
    concatenates_S1024x10_S1024x22_S1024x32_d1 r k

/-- Row 10: the packed entries 55 to 65 (the slice is a payload of its own here), then 21 copies of the zero
    constant handed in as the second argument. -/
theorem pay14_apply (v0 : Vec Ideal S1024x512 .f32) (v2 : Vec Ideal S528x512 .f32) (v6 : Vec Ideal S1x528 .f32) (r : Fin 1024) (k : Fin 32) :
    k0_pay14 (k0_pay13 v0 v2 v6) (Scalar.ofBits .f32 0x00000000#32) (ix2 r k)
      = Cert.Spec.tril (fun s => k0_pay2 v0 v2 v6 (ix2 r s)) 10 k :=
  row_apply 10 55 11 21 rfl rfl (by omega) (k0_pay2 v0 v2 v6) slices_S1024x528_o0_55_S1024x11
    concatenates_S1024x11_S1024x21_S1024x32_d1 r k

/-- Row 11: the packed entries 66 to 77, then 20 zeros. -/
theorem pay15_apply (y : FVec Ideal S1024x528 .f32) (r : Fin 1024) (k : Fin 32) :
    k0_pay15 y (ix2 r k) = Cert.Spec.tril (fun s => y (ix2 r s)) 11 k :=
  row_apply 11 66 12 20 rfl rfl (by omega) y slices_S1024x528_o0_66_S1024x12
    concatenates_S1024x12_S1024x20_S1024x32_d1 r k

/-- Row 12: the packed entries 78 to 90, then 19 zeros. -/
theorem pay16_apply (y : FVec Ideal S1024x528 .f32) (r : Fin 1024) (k : Fin 32) :
    k0_pay16 y (ix2 r k) = Cert.Spec.tril (fun s => y (ix2 r s)) 12 k :=
  row_apply 12 78 13 19 rfl rfl (by omega) y slices_S1024x528_o0_78_S1024x13
    concatenates_S1024x13_S1024x19_S1024x32_d1 r k

/-- Row 13: the packed entries 91 to 104, then 18 zeros. -/
theorem pay17_apply (y : FVec Ideal S1024x528 .f32) (r : Fin 1024) (k : Fin 32) :
    k0_pay17 y (ix2 r k) = Cert.Spec.tril (fun s => y (ix2 r s)) 13 k :=
  row_apply 13 91 14 18 rfl rfl (by omega) y slices_S1024x528_o0_91_S1024x14
    concatenates_S1024x14_S1024x18_S1024x32_d1 r k

/-- Row 14: the packed entries 105 to 119, then 17 zeros. -/
theorem pay18_apply (y : FVec Ideal S1024x528 .f32) (r : Fin 1024) (k : Fin 32) :
    k0_pay18 y (ix2 r k) = Cert.Spec.tril (fun s => y (ix2 r s)) 14 k :=
  row_apply 14 105 15 17 rfl rfl (by omega) y slices_S1024x528_o0_105_S1024x15
    concatenates_S1024x15_S1024x17_S1024x32_d1 r k

/-- Row 15: the packed entries 120 to 135, then 16 zeros. -/
theorem pay19_apply (y : FVec Ideal S1024x528 .f32) (r : Fin 1024) (k : Fin 32) :
    k0_pay19 y (ix2 r k) = Cert.Spec.tril (fun s => y (ix2 r s)) 15 k :=
  row_apply 15 120 16 16 rfl rfl (by omega) y slices_S1024x528_o0_120_S1024x16
    concatenates_S1024x16_S1024x16_S1024x32_d1 r k

/-- Row 16: the packed entries 136 to 152, then 15 zeros. -/
theorem pay20_apply (y : FVec Ideal S1024x528 .f32) (r : Fin 1024) (k : Fin 32) :
    k0_pay20 y (ix2 r k) = Cert.Spec.tril (fun s => y (ix2 r s)) 16 k :=
  row_apply 16 136 17 15 rfl rfl (by omega) y slices_S1024x528_o0_136_S1024x17
    concatenates_S1024x17_S1024x15_S1024x32_d1 r k

/-- Row 17: the packed entries 153 to 170, then 14 zeros. -/
theorem pay21_apply (y : FVec Ideal S1024x528 .f32) (r : Fin 1024) (k : Fin 32) :
    k0_pay21 y (ix2 r k) = Cert.Spec.tril (fun s => y (ix2 r s)) 17 k :=
  row_apply 17 153 18 14 rfl rfl (by omega) y slices_S1024x528_o0_153_S1024x18
    concatenates_S1024x18_S1024x14_S1024x32_d1 r k

/-- Row 18: the packed entries 171 to 189, then 13 zeros. -/
theorem pay22_apply (y : FVec Ideal S1024x528 .f32) (r : Fin 1024) (k : Fin 32) :
    k0_pay22 y (ix2 r k) = Cert.Spec.tril (fun s => y (ix2 r s)) 18 k :=
  row_apply 18 171 19 13 rfl rfl (by omega) y slices_S1024x528_o0_171_S1024x19
    concatenates_S1024x19_S1024x13_S1024x32_d1 r k

/-- Row 19: the packed entries 190 to 209, then 12 zeros. -/
theorem pay23_apply (y : FVec Ideal S1024x528 .f32) (r : Fin 1024) (k : Fin 32) :
    k0_pay23 y (ix2 r k) = Cert.Spec.tril (fun s => y (ix2 r s)) 19 k :=
  row_apply 19 190 20 12 rfl rfl (by omega) y slices_S1024x528_o0_190_S1024x20
    concatenates_S1024x20_S1024x12_S1024x32_d1 r k

/-- Row 20: the packed entries 210 to 230, then 11 zeros. -/
theorem pay24_apply (y : FVec Ideal S1024x528 .f32) (r : Fin 1024) (k : Fin 32) :
    k0_pay24 y (ix2 r k) = Cert.Spec.tril (fun s => y (ix2 r s)) 20 k :=
  row_apply 20 210 21 11 rfl rfl (by omega) y slices_S1024x528_o0_210_S1024x21
    concatenates_S1024x21_S1024x11_S1024x32_d1 r k

/-- Row 21: the packed entries 231 to 252, then 10 zeros. -/
theorem pay25_apply (y : FVec Ideal S1024x528 .f32) (r : Fin 1024) (k : Fin 32) :
    k0_pay25 y (ix2 r k) = Cert.Spec.tril (fun s => y (ix2 r s)) 21 k :=
  row_apply 21 231 22 10 rfl rfl (by omega) y slices_S1024x528_o0_231_S1024x22
    concatenates_S1024x22_S1024x10_S1024x32_d1 r k

/-- Row 22: the packed entries 253 to 275, then 9 zeros. -/
theorem pay26_apply (y : FVec Ideal S1024x528 .f32) (r : Fin 1024) (k : Fin 32) :
    k0_pay26 y (ix2 r k) = Cert.Spec.tril (fun s => y (ix2 r s)) 22 k :=
  row_apply 22 253 23 9 rfl rfl (by omega) y slices_S1024x528_o0_253_S1024x23
    concatenates_S1024x23_S1024x9_S1024x32_d1 r k

/-- Row 23: the packed entries 276 to 299, then 8 zeros. -/
theorem pay27_apply (y : FVec Ideal S1024x528 .f32) (r : Fin 1024) (k : Fin 32) :
    k0_pay27 y (ix2 r k) = Cert.Spec.tril (fun s => y (ix2 r s)) 23 k :=
  row_apply 23 276 24 8 rfl rfl (by omega) y slices_S1024x528_o0_276_S1024x24
    concatenates_S1024x24_S1024x8_S1024x32_d1 r k

/-- Row 24: the packed entries 300 to 324, then 7 zeros. -/
theorem pay28_apply (y : FVec Ideal S1024x528 .f32) (r : Fin 1024) (k : Fin 32) :
    k0_pay28 y (ix2 r k) = Cert.Spec.tril (fun s => y (ix2 r s)) 24 k :=
  row_apply 24 300 25 7 rfl rfl (by omega) y slices_S1024x528_o0_300_S1024x25
    concatenates_S1024x25_S1024x7_S1024x32_d1 r k

end Cert.KernelIdeal.KerRows

end
-- ==== Proof.KerStack.lean ====
/-
  The triangle stacked row by row, and its product with its own transpose.

  The kernel holds the lower triangle of a 32 × 32 matrix as 32 row blocks of width 32, one per matrix row, for 1024
  batch rows at once: rows 0 … 24 arrive already built, rows 25 … 30 are cut from the packed vector as the slice of width
  i + 1 starting at column i (i + 1) / 2 and padded with zeros, and row 31 is the bare slice of width 32 at column 496.
  Each block is viewed with a unit middle axis and the 32 views are joined along that axis, so that entry (r, i, k) of the
  joined array is entry (r, k) of block i, which is entry (i, k) of the triangle of batch row r. The batched product of
  the joined array with itself, contracting the last axis, is then the sum over k of the products of rows i and j of
  that triangle.
-/
import proofs.«110930_j79723182948721_1_alg».proof.Proof.Gen.KernelIdeal.Skeleton
import proofs.«110930_j79723182948721_1_alg».proof.Proof.Spec
import proofs.«110930_j79723182948721_1_alg».proof.Proof.KerPad
import proofs.«110930_j79723182948721_1_alg».proof.Proof.KerGram
import Idealize.ShloMosaic.Shape
import Idealize.ShloMosaic.Lib.ValueIdx
import Idealize.ShloMosaic.Lib.Pipeline.Value
import Idealize.ShloMosaic.PureOps.Ideal.Laws
import Mathlib.Data.Fin.VecNotation
import Mathlib.Algebra.BigOperators.Group.Finset.Basic

noncomputable section

open scoped BigOperators

namespace Cert.KernelIdeal.KerStack
open Cert.KernelIdeal Cert.KernelIdeal.Gen Idealize.ShloMosaic Idealize.ShloMosaic.TcCoe Idealize.ShloMosaic.ValueIdx

/-! ## Joining row blocks along a new middle axis -/

/-- A row block viewed with a unit middle axis reads, at `(r, 0, k)`, the block at `(r, k)`: in row-major order both
    positions are `32 r + k`. -/
private theorem castRow_apply (v : FVec Ideal S1024x32 .f32) (r : Fin 1024) (z : Fin 1) (k : Fin 32) :
    shapeCast S1024x1x32 v shapeCasts_S1024x32_S1024x1x32 (ix3 r z k) = v (ix2 r k) := by
  refine shapeCast_apply v shapeCasts_S1024x32_S1024x1x32 (ix3 r z k) (ix2 r k) ?_
  rw [Shape.rowMajor_val_two, Shape.rowMajor_val_three]
  show r.val * 32 + k.val = (r.val * 1 + z.val) * 32 + k.val
  omega

/-- The row blocks `rows 0 … rows 31`, each viewed with a unit middle axis, joined along that axis. -/
def stack (rows : Fin 32 → FVec Ideal S1024x32 .f32) : FVec Ideal S1024x32x32 .f32 :=
  concatenate S1024x32x32 1
    (List.ofFn fun n : Fin 32 =>
      (⟨S1024x1x32, shapeCast S1024x1x32 (rows n) shapeCasts_S1024x32_S1024x1x32⟩ : (s : Shape) × (s.Idx → Ideal .f32)))
    concatenates_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x32x32_d1

/-- Entry `(r, i, k)` of the joined array is entry `(r, k)` of block `i`: every piece has extent one along the middle
    axis, so the middle coordinate names the piece. -/
theorem stack_apply (rows : Fin 32 → FVec Ideal S1024x32 .f32) (r : Fin 1024) (i k : Fin 32) :
    stack rows (ix3 r i k) = rows i (ix2 r k) := by
  unfold stack
  refine (concatenate_ofFn_unit_apply (t := S1024x32x32) (s₁ := S1024x1x32) 1
    (fun n : Fin 32 => shapeCast S1024x1x32 (rows n) shapeCasts_S1024x32_S1024x1x32) _ rfl rfl (ix3 r i k) i rfl
    (ix3 r 0 k) ?_).trans (castRow_apply (rows i) r 0 k)
  intro b hb
  match b with
  | ⟨0, _⟩ => rfl
  | ⟨1, _⟩ => exact absurd rfl hb
  | ⟨2, _⟩ => rfl

/-- The same joined array with its 32 blocks written out one by one, the way the kernel writes them. -/
def stackLit (w0 w1 w2 w3 w4 w5 w6 w7 w8 w9 w10 w11 w12 w13 w14 w15 w16 w17 w18 w19 w20 w21 w22 w23 w24 w25 w26 w27 w28 w29 w30 w31 :
    FVec Ideal S1024x32 .f32) : FVec Ideal S1024x32x32 .f32 :=
  concatenate S1024x32x32 1
    [⟨S1024x1x32, shapeCast S1024x1x32 w0 shapeCasts_S1024x32_S1024x1x32⟩, ⟨S1024x1x32, shapeCast S1024x1x32 w1 shapeCasts_S1024x32_S1024x1x32⟩,
     ⟨S1024x1x32, shapeCast S1024x1x32 w2 shapeCasts_S1024x32_S1024x1x32⟩, ⟨S1024x1x32, shapeCast S1024x1x32 w3 shapeCasts_S1024x32_S1024x1x32⟩,
     ⟨S1024x1x32, shapeCast S1024x1x32 w4 shapeCasts_S1024x32_S1024x1x32⟩, ⟨S1024x1x32, shapeCast S1024x1x32 w5 shapeCasts_S1024x32_S1024x1x32⟩,
     ⟨S1024x1x32, shapeCast S1024x1x32 w6 shapeCasts_S1024x32_S1024x1x32⟩, ⟨S1024x1x32, shapeCast S1024x1x32 w7 shapeCasts_S1024x32_S1024x1x32⟩,
     ⟨S1024x1x32, shapeCast S1024x1x32 w8 shapeCasts_S1024x32_S1024x1x32⟩, ⟨S1024x1x32, shapeCast S1024x1x32 w9 shapeCasts_S1024x32_S1024x1x32⟩,
     ⟨S1024x1x32, shapeCast S1024x1x32 w10 shapeCasts_S1024x32_S1024x1x32⟩, ⟨S1024x1x32, shapeCast S1024x1x32 w11 shapeCasts_S1024x32_S1024x1x32⟩,
     ⟨S1024x1x32, shapeCast S1024x1x32 w12 shapeCasts_S1024x32_S1024x1x32⟩, ⟨S1024x1x32, shapeCast S1024x1x32 w13 shapeCasts_S1024x32_S1024x1x32⟩,
     ⟨S1024x1x32, shapeCast S1024x1x32 w14 shapeCasts_S1024x32_S1024x1x32⟩, ⟨S1024x1x32, shapeCast S1024x1x32 w15 shapeCasts_S1024x32_S1024x1x32⟩,
     ⟨S1024x1x32, shapeCast S1024x1x32 w16 shapeCasts_S1024x32_S1024x1x32⟩, ⟨S1024x1x32, shapeCast S1024x1x32 w17 shapeCasts_S1024x32_S1024x1x32⟩,
     ⟨S1024x1x32, shapeCast S1024x1x32 w18 shapeCasts_S1024x32_S1024x1x32⟩, ⟨S1024x1x32, shapeCast S1024x1x32 w19 shapeCasts_S1024x32_S1024x1x32⟩,
     ⟨S1024x1x32, shapeCast S1024x1x32 w20 shapeCasts_S1024x32_S1024x1x32⟩, ⟨S1024x1x32, shapeCast S1024x1x32 w21 shapeCasts_S1024x32_S1024x1x32⟩,
     ⟨S1024x1x32, shapeCast S1024x1x32 w22 shapeCasts_S1024x32_S1024x1x32⟩, ⟨S1024x1x32, shapeCast S1024x1x32 w23 shapeCasts_S1024x32_S1024x1x32⟩,
     ⟨S1024x1x32, shapeCast S1024x1x32 w24 shapeCasts_S1024x32_S1024x1x32⟩, ⟨S1024x1x32, shapeCast S1024x1x32 w25 shapeCasts_S1024x32_S1024x1x32⟩,
     ⟨S1024x1x32, shapeCast S1024x1x32 w26 shapeCasts_S1024x32_S1024x1x32⟩, ⟨S1024x1x32, shapeCast S1024x1x32 w27 shapeCasts_S1024x32_S1024x1x32⟩,
     ⟨S1024x1x32, shapeCast S1024x1x32 w28 shapeCasts_S1024x32_S1024x1x32⟩, ⟨S1024x1x32, shapeCast S1024x1x32 w29 shapeCasts_S1024x32_S1024x1x32⟩,
     ⟨S1024x1x32, shapeCast S1024x1x32 w30 shapeCasts_S1024x32_S1024x1x32⟩, ⟨S1024x1x32, shapeCast S1024x1x32 w31 shapeCasts_S1024x32_S1024x1x32⟩]
    concatenates_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x1x32_S1024x32x32_d1

/-- Written out or tabulated, it is the same list of pieces. -/
theorem stackLit_eq (w0 w1 w2 w3 w4 w5 w6 w7 w8 w9 w10 w11 w12 w13 w14 w15 w16 w17 w18 w19 w20 w21 w22 w23 w24 w25 w26 w27 w28 w29 w30 w31 :
    FVec Ideal S1024x32 .f32) :
    stackLit w0 w1 w2 w3 w4 w5 w6 w7 w8 w9 w10 w11 w12 w13 w14 w15 w16 w17 w18 w19 w20 w21 w22 w23 w24 w25 w26 w27 w28 w29 w30 w31
      = stack ![w0, w1, w2, w3, w4, w5, w6, w7, w8, w9, w10, w11, w12, w13, w14, w15, w16, w17, w18, w19, w20, w21, w22, w23, w24, w25, w26, w27,
          w28, w29, w30, w31] := rfl

/-- If, along batch row `r`, block `n` reads as row `n` of a matrix `L`, for each of the 32 blocks, then the joined
    array reads at `(r, i, k)` as `L i k`. -/
private theorem stackLit_read (L : Fin 32 → Fin 32 → Ideal .f32) (r : Fin 1024)
    (w0 w1 w2 w3 w4 w5 w6 w7 w8 w9 w10 w11 w12 w13 w14 w15 w16 w17 w18 w19 w20 w21 w22 w23 w24 w25 w26 w27 w28 w29 w30 w31 :
      FVec Ideal S1024x32 .f32)
    (e0 : ∀ k : Fin 32, w0 (ix2 r k) = L 0 k) (e1 : ∀ k : Fin 32, w1 (ix2 r k) = L 1 k)
    (e2 : ∀ k : Fin 32, w2 (ix2 r k) = L 2 k) (e3 : ∀ k : Fin 32, w3 (ix2 r k) = L 3 k)
    (e4 : ∀ k : Fin 32, w4 (ix2 r k) = L 4 k) (e5 : ∀ k : Fin 32, w5 (ix2 r k) = L 5 k)
    (e6 : ∀ k : Fin 32, w6 (ix2 r k) = L 6 k) (e7 : ∀ k : Fin 32, w7 (ix2 r k) = L 7 k)
    (e8 : ∀ k : Fin 32, w8 (ix2 r k) = L 8 k) (e9 : ∀ k : Fin 32, w9 (ix2 r k) = L 9 k)
    (e10 : ∀ k : Fin 32, w10 (ix2 r k) = L 10 k) (e11 : ∀ k : Fin 32, w11 (ix2 r k) = L 11 k)
    (e12 : ∀ k : Fin 32, w12 (ix2 r k) = L 12 k) (e13 : ∀ k : Fin 32, w13 (ix2 r k) = L 13 k)
    (e14 : ∀ k : Fin 32, w14 (ix2 r k) = L 14 k) (e15 : ∀ k : Fin 32, w15 (ix2 r k) = L 15 k)
    (e16 : ∀ k : Fin 32, w16 (ix2 r k) = L 16 k) (e17 : ∀ k : Fin 32, w17 (ix2 r k) = L 17 k)
    (e18 : ∀ k : Fin 32, w18 (ix2 r k) = L 18 k) (e19 : ∀ k : Fin 32, w19 (ix2 r k) = L 19 k)
    (e20 : ∀ k : Fin 32, w20 (ix2 r k) = L 20 k) (e21 : ∀ k : Fin 32, w21 (ix2 r k) = L 21 k)
    (e22 : ∀ k : Fin 32, w22 (ix2 r k) = L 22 k) (e23 : ∀ k : Fin 32, w23 (ix2 r k) = L 23 k)
    (e24 : ∀ k : Fin 32, w24 (ix2 r k) = L 24 k) (e25 : ∀ k : Fin 32, w25 (ix2 r k) = L 25 k)
    (e26 : ∀ k : Fin 32, w26 (ix2 r k) = L 26 k) (e27 : ∀ k : Fin 32, w27 (ix2 r k) = L 27 k)
    (e28 : ∀ k : Fin 32, w28 (ix2 r k) = L 28 k) (e29 : ∀ k : Fin 32, w29 (ix2 r k) = L 29 k)
    (e30 : ∀ k : Fin 32, w30 (ix2 r k) = L 30 k) (e31 : ∀ k : Fin 32, w31 (ix2 r k) = L 31 k)
    (i k : Fin 32) :
    stackLit w0 w1 w2 w3 w4 w5 w6 w7 w8 w9 w10 w11 w12 w13 w14 w15 w16 w17 w18 w19 w20 w21 w22 w23 w24 w25 w26 w27 w28 w29 w30 w31
      (ix3 r i k) = L i k := by
  rw [stackLit_eq, stack_apply]
  match i with
  | ⟨0, _⟩ => exact e0 k
  | ⟨1, _⟩ => exact e1 k
  | ⟨2, _⟩ => exact e2 k
  | ⟨3, _⟩ => exact e3 k
  | ⟨4, _⟩ => exact e4 k
  | ⟨5, _⟩ => exact e5 k
  | ⟨6, _⟩ => exact e6 k
  | ⟨7, _⟩ => exact e7 k
  | ⟨8, _⟩ => exact e8 k
  | ⟨9, _⟩ => exact e9 k
  | ⟨10, _⟩ => exact e10 k
  | ⟨11, _⟩ => exact e11 k
  | ⟨12, _⟩ => exact e12 k
  | ⟨13, _⟩ => exact e13 k
  | ⟨14, _⟩ => exact e14 k
  | ⟨15, _⟩ => exact e15 k
  | ⟨16, _⟩ => exact e16 k
  | ⟨17, _⟩ => exact e17 k
  | ⟨18, _⟩ => exact e18 k
  | ⟨19, _⟩ => exact e19 k
  | ⟨20, _⟩ => exact e20 k
  | ⟨21, _⟩ => exact e21 k
  | ⟨22, _⟩ => exact e22 k
  | ⟨23, _⟩ => exact e23 k
  | ⟨24, _⟩ => exact e24 k
  | ⟨25, _⟩ => exact e25 k
  | ⟨26, _⟩ => exact e26 k
  | ⟨27, _⟩ => exact e27 k
  | ⟨28, _⟩ => exact e28 k
  | ⟨29, _⟩ => exact e29 k
  | ⟨30, _⟩ => exact e30 k
  | ⟨31, _⟩ => exact e31 k
  | ⟨_ + 32, h⟩ => exact absurd h (Nat.not_lt.2 (Nat.le_add_left _ _))

/-! ## The rows the kernel cuts from the packed vector -/

/-- Row `i` of the triangle as a padded slice: the `i + 1` packed entries from position `i (i + 1) / 2` on, then zeros. A
    column `k ≤ i` falls in the slice, at packed position `i (i + 1) / 2 + k`; a column above the diagonal falls in the
    padding. -/
private theorem padded_tril (i : Fin 32) (o w p : Nat) (hw : w = i.val + 1) (ho : o = i.val * (i.val + 1) / 2) (how : o + w ≤ 528)
    (y : FVec Ideal S1024x528 .f32) (hs : S1024x528.Slices ![0, o] (⟨2, ![1024, w]⟩ : Shape))
    (hc : Shape.Concatenates [(⟨2, ![1024, w]⟩ : Shape), (⟨2, ![1024, p]⟩ : Shape)] S1024x32 1) (r : Fin 1024) (k : Fin 32) :
    concatenate S1024x32 1 [⟨(⟨2, ![1024, w]⟩ : Shape), extractStridedSlice (⟨2, ![1024, w]⟩ : Shape) ![0, o] y hs⟩,
        ⟨(⟨2, ![1024, p]⟩ : Shape), broadcast (⟨2, ![1024, p]⟩ : Shape) (Scalar.ofBits .f32 0x00000000#32 : Ideal .f32)⟩] hc (ix2 r k)
      = Cert.Spec.tril (fun s => y (ix2 r s)) i k := by
  subst hw ho
  rw [KerPad.padRow_apply _ _ p how y hs hc _ r k]
  unfold Cert.Spec.tril
  by_cases h : k.val ≤ i.val
  · rw [dif_pos (Nat.lt_succ_of_le h), dif_pos h]
    rfl
  · rw [dif_neg (fun hlt => h (Nat.le_of_lt_succ hlt)), dif_neg h]
    exact KerPad.zero_eq

/-- The last row is the bare slice of width 32 at position `31 · 32 / 2 = 496`: every column is on or below the
    diagonal. -/
private theorem slice32_tril (y : FVec Ideal S1024x528 .f32) (r : Fin 1024) (k : Fin 32) :
    extractStridedSlice S1024x32 ![0, 496] y slices_S1024x528_o0_496_S1024x32 (ix2 r k)
      = Cert.Spec.tril (fun s => y (ix2 r s)) 31 k := by
  rw [KerPad.slice32_apply 496 (by omega) y slices_S1024x528_o0_496_S1024x32 r k]
  unfold Cert.Spec.tril
  rw [dif_pos (show k.val ≤ (31 : Fin 32).val from Nat.le_of_lt_succ k.isLt)]
  rfl

/-- Row 25: width 26 at position 325, padded by the constant the kernel passes in. -/
def cut25 (y : FVec Ideal S1024x528 .f32) (c : Ideal .f32) : FVec Ideal S1024x32 .f32 :=
  concatenate S1024x32 1 [⟨S1024x26, extractStridedSlice S1024x26 ![0, 325] y slices_S1024x528_o0_325_S1024x26⟩,
    ⟨S1024x6, broadcast S1024x6 c⟩] concatenates_S1024x26_S1024x6_S1024x32_d1
/-- Row 26: width 27 at position 351. -/
def cut26 (y : FVec Ideal S1024x528 .f32) : FVec Ideal S1024x32 .f32 :=
  concatenate S1024x32 1 [⟨S1024x27, extractStridedSlice S1024x27 ![0, 351] y slices_S1024x528_o0_351_S1024x27⟩,
    ⟨S1024x5, broadcast S1024x5 (Scalar.ofBits .f32 0x00000000#32)⟩] concatenates_S1024x27_S1024x5_S1024x32_d1
/-- Row 27: width 28 at position 378. -/
def cut27 (y : FVec Ideal S1024x528 .f32) : FVec Ideal S1024x32 .f32 :=
  concatenate S1024x32 1 [⟨S1024x28, extractStridedSlice S1024x28 ![0, 378] y slices_S1024x528_o0_378_S1024x28⟩,
    ⟨S1024x4, broadcast S1024x4 (Scalar.ofBits .f32 0x00000000#32)⟩] concatenates_S1024x28_S1024x4_S1024x32_d1
/-- Row 28: width 29 at position 406. -/
def cut28 (y : FVec Ideal S1024x528 .f32) : FVec Ideal S1024x32 .f32 :=
  concatenate S1024x32 1 [⟨S1024x29, extractStridedSlice S1024x29 ![0, 406] y slices_S1024x528_o0_406_S1024x29⟩,
    ⟨S1024x3, broadcast S1024x3 (Scalar.ofBits .f32 0x00000000#32)⟩] concatenates_S1024x29_S1024x3_S1024x32_d1
/-- Row 29: width 30 at position 435. -/
def cut29 (y : FVec Ideal S1024x528 .f32) : FVec Ideal S1024x32 .f32 :=
  concatenate S1024x32 1 [⟨S1024x30, extractStridedSlice S1024x30 ![0, 435] y slices_S1024x528_o0_435_S1024x30⟩,
    ⟨S1024x2, broadcast S1024x2 (Scalar.ofBits .f32 0x00000000#32)⟩] concatenates_S1024x30_S1024x2_S1024x32_d1
/-- Row 30: width 31 at position 465. -/
def cut30 (y : FVec Ideal S1024x528 .f32) : FVec Ideal S1024x32 .f32 :=
  concatenate S1024x32 1 [⟨S1024x31, extractStridedSlice S1024x31 ![0, 465] y slices_S1024x528_o0_465_S1024x31⟩,
    ⟨S1024x1, broadcast S1024x1 (Scalar.ofBits .f32 0x00000000#32)⟩] concatenates_S1024x31_S1024x1_S1024x32_d1
/-- Row 31: the bare slice of width 32 at position 496. -/
def cut31 (y : FVec Ideal S1024x528 .f32) : FVec Ideal S1024x32 .f32 :=
  extractStridedSlice S1024x32 ![0, 496] y slices_S1024x528_o0_496_S1024x32

/-! ## The payload -/

/-- The payload is the batched product of the joined array with itself, rounded operands and a zero accumulator: the
    kernel's chain of bindings, read off. -/
theorem pay30_lit (y : FVec Ideal S1024x528 .f32)
    (v12 v15 v18 v21 v24 v27 v30 v33 v36 v39 v42 v45 v48 v51 v54 v57 v60 v63 v66 v69 v72 v75 v78 v81 v84 : FVec Ideal S1024x32 .f32)
    (c : Ideal .f32) :
    k0_pay30 y v12 v15 v18 v21 v24 v27 v30 v33 v36 v39 v42 v45 v48 v51 v54 v57 v60 v63 v66 v69 v72 v75 v78 v81 v84 (k0_pay29 y) c
      = matmul dot_S1024x32x32_S1024x32x32_S1024x32x32_2_2_1_1_0_0 none
          (truncf .bf16 (stackLit v12 v15 v18 v21 v24 v27 v30 v33 v36 v39 v42 v45 v48 v51 v54 v57 v60 v63 v66 v69 v72 v75 v78 v81 v84
            (cut25 y c) (cut26 y) (cut27 y) (cut28 y) (cut29 y) (cut30 y) (cut31 y)) bitsLt_bf16_f32)
          (truncf .bf16 (stackLit v12 v15 v18 v21 v24 v27 v30 v33 v36 v39 v42 v45 v48 v51 v54 v57 v60 v63 v66 v69 v72 v75 v78 v81 v84
            (cut25 y c) (cut26 y) (cut27 y) (cut28 y) (cut29 y) (cut30 y) (cut31 y)) bitsLt_bf16_f32)
          (constant S1024x32x32 .f32 0x00000000#32) := rfl

/-- Entry `(r, i, j)` of the payload, given that the 25 rows handed in are rows 0 … 24 of the triangle of each batch
    row: the sum over `k` of the products of entries `(i, k)` and `(j, k)` of that triangle. -/
theorem pay30_apply (y : FVec Ideal S1024x528 .f32)
    (v12 v15 v18 v21 v24 v27 v30 v33 v36 v39 v42 v45 v48 v51 v54 v57 v60 v63 v66 v69 v72 v75 v78 v81 v84 : FVec Ideal S1024x32 .f32)
    (h0 : ∀ (r : Fin 1024) (k : Fin 32), v12 (ix2 r k) = Cert.Spec.tril (fun s => y (ix2 r s)) 0 k)
    (h1 : ∀ (r : Fin 1024) (k : Fin 32), v15 (ix2 r k) = Cert.Spec.tril (fun s => y (ix2 r s)) 1 k)
    (h2 : ∀ (r : Fin 1024) (k : Fin 32), v18 (ix2 r k) = Cert.Spec.tril (fun s => y (ix2 r s)) 2 k)
    (h3 : ∀ (r : Fin 1024) (k : Fin 32), v21 (ix2 r k) = Cert.Spec.tril (fun s => y (ix2 r s)) 3 k)
    (h4 : ∀ (r : Fin 1024) (k : Fin 32), v24 (ix2 r k) = Cert.Spec.tril (fun s => y (ix2 r s)) 4 k)
    (h5 : ∀ (r : Fin 1024) (k : Fin 32), v27 (ix2 r k) = Cert.Spec.tril (fun s => y (ix2 r s)) 5 k)
    (h6 : ∀ (r : Fin 1024) (k : Fin 32), v30 (ix2 r k) = Cert.Spec.tril (fun s => y (ix2 r s)) 6 k)
    (h7 : ∀ (r : Fin 1024) (k : Fin 32), v33 (ix2 r k) = Cert.Spec.tril (fun s => y (ix2 r s)) 7 k)
    (h8 : ∀ (r : Fin 1024) (k : Fin 32), v36 (ix2 r k) = Cert.Spec.tril (fun s => y (ix2 r s)) 8 k)
    (h9 : ∀ (r : Fin 1024) (k : Fin 32), v39 (ix2 r k) = Cert.Spec.tril (fun s => y (ix2 r s)) 9 k)
    (h10 : ∀ (r : Fin 1024) (k : Fin 32), v42 (ix2 r k) = Cert.Spec.tril (fun s => y (ix2 r s)) 10 k)
    (h11 : ∀ (r : Fin 1024) (k : Fin 32), v45 (ix2 r k) = Cert.Spec.tril (fun s => y (ix2 r s)) 11 k)
    (h12 : ∀ (r : Fin 1024) (k : Fin 32), v48 (ix2 r k) = Cert.Spec.tril (fun s => y (ix2 r s)) 12 k)
    (h13 : ∀ (r : Fin 1024) (k : Fin 32), v51 (ix2 r k) = Cert.Spec.tril (fun s => y (ix2 r s)) 13 k)
    (h14 : ∀ (r : Fin 1024) (k : Fin 32), v54 (ix2 r k) = Cert.Spec.tril (fun s => y (ix2 r s)) 14 k)
    (h15 : ∀ (r : Fin 1024) (k : Fin 32), v57 (ix2 r k) = Cert.Spec.tril (fun s => y (ix2 r s)) 15 k)
    (h16 : ∀ (r : Fin 1024) (k : Fin 32), v60 (ix2 r k) = Cert.Spec.tril (fun s => y (ix2 r s)) 16 k)
    (h17 : ∀ (r : Fin 1024) (k : Fin 32), v63 (ix2 r k) = Cert.Spec.tril (fun s => y (ix2 r s)) 17 k)
    (h18 : ∀ (r : Fin 1024) (k : Fin 32), v66 (ix2 r k) = Cert.Spec.tril (fun s => y (ix2 r s)) 18 k)
    (h19 : ∀ (r : Fin 1024) (k : Fin 32), v69 (ix2 r k) = Cert.Spec.tril (fun s => y (ix2 r s)) 19 k)
    (h20 : ∀ (r : Fin 1024) (k : Fin 32), v72 (ix2 r k) = Cert.Spec.tril (fun s => y (ix2 r s)) 20 k)
    (h21 : ∀ (r : Fin 1024) (k : Fin 32), v75 (ix2 r k) = Cert.Spec.tril (fun s => y (ix2 r s)) 21 k)
    (h22 : ∀ (r : Fin 1024) (k : Fin 32), v78 (ix2 r k) = Cert.Spec.tril (fun s => y (ix2 r s)) 22 k)
    (h23 : ∀ (r : Fin 1024) (k : Fin 32), v81 (ix2 r k) = Cert.Spec.tril (fun s => y (ix2 r s)) 23 k)
    (h24 : ∀ (r : Fin 1024) (k : Fin 32), v84 (ix2 r k) = Cert.Spec.tril (fun s => y (ix2 r s)) 24 k)
    (r : Fin 1024) (i j : Fin 32) :
    k0_pay30 y v12 v15 v18 v21 v24 v27 v30 v33 v36 v39 v42 v45 v48 v51 v54 v57 v60 v63 v66 v69 v72 v75 v78 v81 v84 (k0_pay29 y)
        (Scalar.ofBits .f32 0x00000000#32) (ix3 r i j)
      = ∑ k : Fin 32, Cert.Spec.tril (fun s => y (ix2 r s)) i k * Cert.Spec.tril (fun s => y (ix2 r s)) j k := by
  have hS : ∀ i k : Fin 32,
      stackLit v12 v15 v18 v21 v24 v27 v30 v33 v36 v39 v42 v45 v48 v51 v54 v57 v60 v63 v66 v69 v72 v75 v78 v81 v84
          (cut25 y (Scalar.ofBits .f32 0x00000000#32)) (cut26 y) (cut27 y) (cut28 y) (cut29 y) (cut30 y) (cut31 y) (ix3 r i k)
        = Cert.Spec.tril (fun s => y (ix2 r s)) i k :=
    stackLit_read (fun i k => Cert.Spec.tril (fun s => y (ix2 r s)) i k) r
      v12 v15 v18 v21 v24 v27 v30 v33 v36 v39 v42 v45 v48 v51 v54 v57 v60 v63 v66 v69 v72 v75 v78 v81 v84
      (cut25 y (Scalar.ofBits .f32 0x00000000#32)) (cut26 y) (cut27 y) (cut28 y) (cut29 y) (cut30 y) (cut31 y)
      (fun k => h0 r k) (fun k => h1 r k) (fun k => h2 r k) (fun k => h3 r k) (fun k => h4 r k) (fun k => h5 r k)
      (fun k => h6 r k) (fun k => h7 r k) (fun k => h8 r k) (fun k => h9 r k) (fun k => h10 r k) (fun k => h11 r k)
      (fun k => h12 r k) (fun k => h13 r k) (fun k => h14 r k) (fun k => h15 r k) (fun k => h16 r k) (fun k => h17 r k)
      (fun k => h18 r k) (fun k => h19 r k) (fun k => h20 r k) (fun k => h21 r k) (fun k => h22 r k) (fun k => h23 r k)
      (fun k => h24 r k)
      (fun k => padded_tril 25 325 26 6 rfl rfl (by omega) y slices_S1024x528_o0_325_S1024x26 concatenates_S1024x26_S1024x6_S1024x32_d1 r k)
      (fun k => padded_tril 26 351 27 5 rfl rfl (by omega) y slices_S1024x528_o0_351_S1024x27 concatenates_S1024x27_S1024x5_S1024x32_d1 r k)
      (fun k => padded_tril 27 378 28 4 rfl rfl (by omega) y slices_S1024x528_o0_378_S1024x28 concatenates_S1024x28_S1024x4_S1024x32_d1 r k)
      (fun k => padded_tril 28 406 29 3 rfl rfl (by omega) y slices_S1024x528_o0_406_S1024x29 concatenates_S1024x29_S1024x3_S1024x32_d1 r k)
      (fun k => padded_tril 29 435 30 2 rfl rfl (by omega) y slices_S1024x528_o0_435_S1024x30 concatenates_S1024x30_S1024x2_S1024x32_d1 r k)
      (fun k => padded_tril 30 465 31 1 rfl rfl (by omega) y slices_S1024x528_o0_465_S1024x31 concatenates_S1024x31_S1024x1_S1024x32_d1 r k)
      (fun k => slice32_tril y r k)
  rw [pay30_lit, KerGram.gram_apply]
  exact Finset.sum_congr rfl fun k _ => by rw [hS i k, hS j k]

end Cert.KernelIdeal.KerStack

end
-- ==== Proof.KerValue.lean ====
/-
  What one grid point's body leaves in the output block, read at one entry: the Gram matrix, plus the diagonal constant,
  of the unpacked triangle of the linear layer of the block's row.
-/
import proofs.«110930_j79723182948721_1_alg».proof.Proof.Gen.KernelIdeal.Frame
import proofs.«110930_j79723182948721_1_alg».proof.Proof.Spec
import proofs.«110930_j79723182948721_1_alg».proof.Proof.KerLinear
import proofs.«110930_j79723182948721_1_alg».proof.Proof.KerGram
import proofs.«110930_j79723182948721_1_alg».proof.Proof.KerRows
import proofs.«110930_j79723182948721_1_alg».proof.Proof.KerStack
import Idealize.ShloMosaic.Lib.ValueIdx
import Idealize.ShloMosaic.Lib.Pipeline.Value

noncomputable section

open scoped BigOperators

namespace Cert.KernelIdeal.KerValue

open Cert.KernelIdeal Cert.KernelIdeal.Gen Idealize.ShloMosaic Idealize.ShloMosaic.TcCoe Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- Entry `(r, i, j)` of the block the body stores is `covRow` of row `r` of the input block, the whole weight block and
    the bias row. -/
theorem out_apply (x0 : Vec Ideal S1024x512 .f32) (x1 : Vec Ideal S528x512 .f32) (x2 : Vec Ideal S1x528 .f32)
    (r : Fin 1024) (i j : Fin 32) :
    out0_3 x0 x1 x2 (ix3 r i j)
      = Cert.Spec.covRow (fun d => x0 (ix2 r d)) (fun s d => x1 (ix2 s d)) (fun s => x2 (ix2 0 s)) i j := by
  unfold out0_3
  -- the one store covers the block, and the three loads read the whole input blocks
  rw [View.canon_unit_zero hz3]
  simp only [View.ld_unit_zero (S := S1024x512) hz2, View.ld_unit_zero (S := S528x512) hz2,
    View.ld_unit_zero (S := S1x528) hz2]
  -- the diagonal constant, then the product of the stacked rows with their transposes
  rw [Cert.KernelIdeal.KerGram.pay1_apply, Cert.KernelIdeal.KerStack.pay30_apply]
  · -- the packed row is the linear layer of the input row
    have hy : (fun s => k0_pay2 x0 x1 x2 (ix2 r s))
        = Cert.Spec.lin (fun d => x0 (ix2 r d)) (fun s d => x1 (ix2 s d)) (fun s => x2 (ix2 0 s)) :=
      funext fun s => Cert.KernelIdeal.KerLinear.pay2_apply x0 x1 x2 r s
    rw [hy]
    rfl
  -- rows 0 to 24, each its own payload
  · exact Cert.KernelIdeal.KerRows.pay3_apply x0 x1 x2
  · exact Cert.KernelIdeal.KerRows.pay4_apply x0 x1 x2
  · exact Cert.KernelIdeal.KerRows.pay5_apply x0 x1 x2
  · exact Cert.KernelIdeal.KerRows.pay6_apply x0 x1 x2
  · exact Cert.KernelIdeal.KerRows.pay7_apply x0 x1 x2
  · exact Cert.KernelIdeal.KerRows.pay8_apply x0 x1 x2
  · exact Cert.KernelIdeal.KerRows.pay9_apply x0 x1 x2
  · exact Cert.KernelIdeal.KerRows.pay10_apply x0 x1 x2
  · exact Cert.KernelIdeal.KerRows.pay11_apply x0 x1 x2
  · exact Cert.KernelIdeal.KerRows.pay12_apply x0 x1 x2
  · exact Cert.KernelIdeal.KerRows.pay14_apply x0 x1 x2
  · exact Cert.KernelIdeal.KerRows.pay15_apply (k0_pay2 x0 x1 x2)
  · exact Cert.KernelIdeal.KerRows.pay16_apply (k0_pay2 x0 x1 x2)
  · exact Cert.KernelIdeal.KerRows.pay17_apply (k0_pay2 x0 x1 x2)
  · exact Cert.KernelIdeal.KerRows.pay18_apply (k0_pay2 x0 x1 x2)
  · exact Cert.KernelIdeal.KerRows.pay19_apply (k0_pay2 x0 x1 x2)
  · exact Cert.KernelIdeal.KerRows.pay20_apply (k0_pay2 x0 x1 x2)
  · exact Cert.KernelIdeal.KerRows.pay21_apply (k0_pay2 x0 x1 x2)
  · exact Cert.KernelIdeal.KerRows.pay22_apply (k0_pay2 x0 x1 x2)
  · exact Cert.KernelIdeal.KerRows.pay23_apply (k0_pay2 x0 x1 x2)
  · exact Cert.KernelIdeal.KerRows.pay24_apply (k0_pay2 x0 x1 x2)
  · exact Cert.KernelIdeal.KerRows.pay25_apply (k0_pay2 x0 x1 x2)
  · exact Cert.KernelIdeal.KerRows.pay26_apply (k0_pay2 x0 x1 x2)
  · exact Cert.KernelIdeal.KerRows.pay27_apply (k0_pay2 x0 x1 x2)
  · exact Cert.KernelIdeal.KerRows.pay28_apply (k0_pay2 x0 x1 x2)

end Cert.KernelIdeal.KerValue

end
-- ==== Proof.Blocks.lean ====
/-
  From the blocks to the whole array.  Grid point `t` stages rows `1024 t … 1024 t + 1023` of the input, the whole weight
  matrix and the bias row, and writes back the 1024 result matrices of those rows; the 64 blocks tile the batch axis.
  So the output array after the run is the specification `G` of the three argument arrays.
-/
import proofs.«110930_j79723182948721_1_alg».proof.Proof.Gen.KernelIdeal.Value
import proofs.«110930_j79723182948721_1_alg».proof.Proof.KerValue
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Value Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The index maps over the grid: the input and the output move one block along the batch axis per point, the weight
    and the bias stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The three input blocks of a point, at their literal types. -/
abbrev xblk (c : Dev nD) (t : Fin cfg0.N) : Vec Ideal S1024x512 .f32 := iblk m c 0 t
abbrev wblk (c : Dev nD) (t : Fin cfg0.N) : Vec Ideal S528x512 .f32 := iblk m c 1 t
abbrev bblk (c : Dev nD) (t : Fin cfg0.N) : Vec Ideal S1x528 .f32 := iblk m c 2 t

/-- The bias window's array is the bias vector recast as one row. -/
theorem V_main_v0 (c : Dev nD) :
    (V m c main_v0 : S1x528.Idx → EReal) = shapeCast S1x528 (m ((c : Thread nD τ).loc main_arg2)) shapeCasts_S528_S1x528 := by
  dsimp only [Gen.V, Gen.hostOps0]
  after_results
  rfl

/-- Row `r` of point `t`'s input block is row `1024 t + r` of the input. -/
theorem xblk_apply (c : Dev nD) (t : Fin cfg0.N) (r : Fin 1024) (d : Fin 512) (n : Fin 65536) (hn : n.val = t.val * 1024 + r.val) :
    xblk m c t (ix2 r d) = m ((c : Thread nD τ).loc main_arg0) (ix2 n d) := by
  obtain ⟨e0, e1, -⟩ := idx_facts t
  show V m c main_arg0 (((cfg0.win 0).blk t).view.emb (ix2 r d)) = _
  rw [V_main_arg0]
  refine congrArg _ ?_
  funext a; apply Fin.ext
  match a with
  | ⟨0, _⟩ => show win0_0.index t (0 : Fin 2) * 1024 + 1 * r.val = n.val; omega
  | ⟨1, _⟩ => show win0_0.index t (1 : Fin 2) * 512 + 1 * d.val = d.val; omega

/-- Every point's weight block is the weight matrix. -/
theorem wblk_apply (c : Dev nD) (t : Fin cfg0.N) (s : Fin 528) (d : Fin 512) :
    wblk m c t (ix2 s d) = m ((c : Thread nD τ).loc main_arg1) (ix2 s d) := by
  obtain ⟨-, -, e2, e3, -⟩ := idx_facts t
  show V m c main_arg1 (((cfg0.win 1).blk t).view.emb (ix2 s d)) = _
  rw [V_main_arg1]
  refine congrArg _ ?_
  funext a; apply Fin.ext
  match a with
  | ⟨0, _⟩ => show win0_1.index t (0 : Fin 2) * 528 + 1 * s.val = s.val; omega
  | ⟨1, _⟩ => show win0_1.index t (1 : Fin 2) * 512 + 1 * d.val = d.val; omega

/-- Every point's bias block is the bias vector as a row. -/
theorem bblk_apply (c : Dev nD) (t : Fin cfg0.N) (s : Fin 528) :
    bblk m c t (ix2 0 s) = m ((c : Thread nD τ).loc main_arg2) (ix1 s) := by
  obtain ⟨-, -, -, -, e4, e5, -⟩ := idx_facts t
  show (V m c main_v0 : S1x528.Idx → EReal) (((cfg0.win 2).blk t).view.emb (ix2 0 s)) = _
  rw [V_main_v0]
  have he : ((cfg0.win 2).blk t).view.emb (ix2 (0 : Fin 1) s) = (ix2 (0 : Fin 1) s : S1x528.Idx) := by
    funext a; apply Fin.ext
    match a with
    | ⟨0, _⟩ => show win0_2.index t (0 : Fin 2) * 1 + 1 * 0 = 0; omega
    | ⟨1, _⟩ => show win0_2.index t (1 : Fin 2) * 528 + 1 * s.val = s.val; omega
  rw [he]
  exact shapeCast_a_1a_apply _ _ (0 : Fin 1) s

/-- Entry `(r, i, j)` of point `t`'s output block sits at `(1024 t + r, i, j)` of the output. -/
theorem emb3 (t : Fin cfg0.N) (r : Fin 1024) (i j : Fin 32) (n : Fin 65536) (hn : n.val = t.val * 1024 + r.val) :
    ((cfg0.win 3).blk t).view.emb (ix3 r i j) = (ix3 n i j : S65536x32x32.Idx) := by
  obtain ⟨-, -, -, -, -, -, e6, e7, e8⟩ := idx_facts t
  funext a; apply Fin.ext
  match a with
  | ⟨0, _⟩ => show win0_3.index t (0 : Fin 3) * 1024 + 1 * r.val = n.val; omega
  | ⟨1, _⟩ => show win0_3.index t (1 : Fin 3) * 32 + 1 * i.val = i.val; omega
  | ⟨2, _⟩ => show win0_3.index t (2 : Fin 3) * 32 + 1 * j.val = j.val; omega

/-- What point `t` writes back is block `t` of the specification of the argument arrays. -/
theorem flushed_eq (c : Dev nD) (t : Fin cfg0.N) :
    (dats m 0 c).flushed 3 t = ((cfg0.win 3).blk t).view.read (Elt Ideal)
      (Cert.Spec.G (m ((c : Thread nD τ).loc main_arg0)) (m ((c : Thread nD τ).loc main_arg1)) (m ((c : Thread nD τ).loc main_arg2))) := by
  rw [Value.flushed3]
  funext q
  obtain ⟨r, i, j, rfl⟩ : ∃ (r : Fin 1024) (i j : Fin 32), q = ix3 r i j := ⟨q 0, q 1, q 2, eq_ix3 q⟩
  have ht : t.val < 64 := t.isLt
  have hr : r.val < 1024 := r.isLt
  show out0_3 (xblk m c t) (wblk m c t) (bblk m c t) (ix3 r i j)
    = Cert.Spec.G _ _ _ (((cfg0.win 3).blk t).view.emb (ix3 r i j))
  rw [Cert.KernelIdeal.KerValue.out_apply, emb3 t r i j ⟨t.val * 1024 + r.val, by omega⟩ rfl, Cert.Spec.G_ix3]
  unfold Cert.Spec.Gc
  have hx : (fun d => xblk m c t (ix2 r d)) = fun d => m ((c : Thread nD τ).loc main_arg0) (ix2 (⟨t.val * 1024 + r.val, by omega⟩ : Fin 65536) d) :=
    funext fun d => xblk_apply m c t r d _ rfl
  have hw : (fun s d => wblk m c t (ix2 s d)) = fun s d => m ((c : Thread nD τ).loc main_arg1) (ix2 s d) :=
    funext fun s => funext fun d => wblk_apply m c t s d
  have hb : (fun s => bblk m c t (ix2 0 s)) = fun s => m ((c : Thread nD τ).loc main_arg2) (ix1 s) :=
    funext fun s => bblk_apply m c t s
  rw [hx, hw, hb]

/-- An index of the output is in point `t`'s block iff each coordinate is in the block's range on its axis. -/
theorem mem_blk3 (t : Fin cfg0.N) (i : S65536x32x32.Idx) :
    i ∈ ((cfg0.win 3).blk t).view.set ↔ ∀ a : Fin 3, win0_3.index t a * S1024x32x32.size a ≤ (i a).val
      ∧ (i a).val < win0_3.index t a * S1024x32x32.size a + S1024x32x32.size a := by
  show i ∈ ((View.whole main_v1).slice (win0_3.rect t)).set ↔ _
  rw [View.set_slice_whole, Rect.mem_set_unit]
  exact Iff.rfl

/-- The 64 blocks cover the output: batch row `n` lies in the block of point `n / 1024`. -/
theorem cover3 (i : S65536x32x32.Idx) :
    ∃ t : Fin cfg0.N, (cfg0.win 3).flush t = true ∧ i ∈ ((cfg0.win 3).blk t).view.set := by
  have h0 : (i 0).val < 65536 := (i 0).isLt
  have h1 : (i 1).val < 32 := (i 1).isLt
  have h2 : (i 2).val < 32 := (i 2).isLt
  let t : Fin cfg0.N := ⟨(i 0).val / 1024, by show (i 0).val / 1024 < 64; omega⟩
  have htv : t.val = (i 0).val / 1024 := rfl
  obtain ⟨-, -, -, -, -, -, e6, e7, e8⟩ := idx_facts t
  refine ⟨t, flush0_3 t, ?_⟩
  rw [mem_blk3]
  intro a
  match a with
  | ⟨0, _⟩ => show win0_3.index t (0 : Fin 3) * 1024 ≤ (i 0).val ∧ (i 0).val < win0_3.index t (0 : Fin 3) * 1024 + 1024; omega
  | ⟨1, _⟩ => show win0_3.index t (1 : Fin 3) * 32 ≤ (i 1).val ∧ (i 1).val < win0_3.index t (1 : Fin 3) * 32 + 32; omega
  | ⟨2, _⟩ => show win0_3.index t (2 : Fin 3) * 32 ≤ (i 2).val ∧ (i 2).val < win0_3.index t (2 : Fin 3) * 32 + 32; omega

/-- The output array after the run is the specification of the argument arrays. -/
theorem final (c : Dev nD) :
    (dats m 0 c).arrAt 3 cfg0.N
      = Cert.Spec.G (m ((c : Thread nD τ).loc main_arg0)) (m ((c : Thread nD τ).loc main_arg1)) (m ((c : Thread nD τ).loc main_arg2)) :=
  (dats m 0 c).arrAt_eq_of_cover 3 _ (fun t _ => flushed_eq m c t) cover3

/-- The kernel's run: every weakly fair execution ends with the result at the specification of the arguments, the
    arguments unchanged. -/
theorem run : θ_run defs (onTc (τ := τ) (main (F := Ideal))) ⟨m, fun _ => 0, ρ⟩ fun r => ∀ c : Dev nD,
      r.2.mem ((c : Thread nD τ).loc main_v1)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefTerm.lean ====
/-
  The reference's result as a composition of four stages, each named so that it can be read on its own:
  the table of scatter positions, the linear layer, the unpacking of the packed vector into a lower-triangular
  matrix, and the Gram matrix with the diagonal constant.
-/
import proofs.«110930_j79723182948721_1_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- The first column of the position table: for each packed position its row in the triangle. -/
def rowTab : IVec S528 32 :=
  select (constantI S528 1 0#1) (addi (fun i => lit0 (S528.rowMajor i)) (broadcastInDim S528 ![] bcast_S_S528 (constantI S_ 32 32#32)))
    (fun i => lit0 (S528.rowMajor i))

/-- The second column of the position table: for each packed position its column in the triangle. -/
def colTab : IVec S528 32 :=
  select (constantI S528 1 0#1) (addi (fun i => lit1 (S528.rowMajor i)) (broadcastInDim S528 ![] bcast_S_S528 (constantI S_ 32 32#32)))
    (fun i => lit1 (S528.rowMajor i))

/-- The table of scatter positions: entry `(s, 0)` the row and entry `(s, 1)` the column of packed position `s`. -/
def idxTab : IVec S528x2 32 :=
  concatenate S528x2 1 [⟨S528x1, broadcastInDim S528x1 ![0] bcast_S528_S528x1_0 rowTab⟩,
    ⟨S528x1, broadcastInDim S528x1 ![0] bcast_S528_S528x1_0 colTab⟩] concatenates_S528x1_S528x1_S528x2_d1

/-- The linear layer: `x · Wᵀ + b`, the bias broadcast over the batch. -/
def linStage (x : FVec F S65536x512 .f32) (W : FVec F S528x512 .f32) (b : FVec F S528 .f32) : FVec F S65536x528 .f32 :=
  addf (Host.dotGeneral dot_S65536x512_S512x528_S65536x528_1_0_0_1_n_n none x (transpose S512x528 [1, 0] W transposes_S528x512_S512x528_1_0))
    (broadcastInDim S65536x528 ![0, 1] bcast_S1x528_S65536x528_0_1 (broadcastInDim S1x528 ![1] bcast_S528_S1x528_1 b))

/-- The packed vectors written into a zero array at the table's positions. -/
def trilStage (y : FVec F S65536x528 .f32) : FVec F S65536x32x32 .f32 :=
  Host.scatter scatter_S65536x32x32_S528x2_S65536x528_0_12_12_1 (fun _ b => b)
    (broadcastInDim S65536x32x32 ![] bcast_S_S65536x32x32 (constant S_ .f32 0x00000000#32)) idxTab y

/-- The diagonal constant: the literal times the indicator of the diagonal, broadcast over the batch. -/
def eyeStage : FVec F S65536x32x32 .f32 :=
  broadcastInDim S65536x32x32 ![0, 1, 2] bcast_S1x32x32_S65536x32x32_0_1_2
    (broadcastInDim S1x32x32 ![1, 2] bcast_S32x32_S1x32x32_1_2
      (mulf (broadcastInDim S32x32 ![] bcast_S_S32x32 (constant S_ .f32 0x38D1B717#32))
        (uitofp .f32 (cmpi .eq (addi (iotaInDim S32x32 32 0) (broadcastInDim S32x32 ![] bcast_S_S32x32 (constantI S_ 32 0#32)))
          (iotaInDim S32x32 32 1)))))

/-- The batched product of the triangular matrix with its transpose, plus the diagonal constant. -/
def covStage (L : FVec F S65536x32x32 .f32) : FVec F S65536x32x32 .f32 :=
  addf (Host.dotGeneral dot_S65536x32x32_S65536x32x32_S65536x32x32_2_2_1_1_0_0 none L L) eyeStage

/-- The reference's result as a function of its three arguments. -/
def refOut (x : FVec F S65536x512 .f32) (W : FVec F S528x512 .f32) (b : FVec F S528 .f32) : FVec F S65536x32x32 .f32 :=
  covStage (trilStage (linStage x W b))

end Cert.ReferenceIdeal.RefTerm

end
-- ==== Proof.RefRun.lean ====
/-
  The reference program's run: its thirty-seven host operations in order (over forty buffers: three arguments and
  one result per operation), and the fact that every weakly fair execution ends with the result buffer at the
  composition of the four stages applied to the arguments, the arguments unchanged.
-/
import proofs.«110930_j79723182948721_1_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- Two one-column tables side by side: the first as column 0, the second as column 1. -/
def pairCols (a b : IVec S528x1 32) : IVec S528x2 32 :=
  concatenate S528x2 1 [⟨S528x1, a⟩, ⟨S528x1, b⟩] concatenates_S528x1_S528x1_S528x2_d1

/-- The reference's operations, in program order: the two position columns and their masks; the linear layer
    (transpose, product, the bias broadcast twice, the sum); the zero array; each position column shifted by the
    side length where its mask holds (nowhere: the mask is constantly false); the position table; the scatter;
    the Gram product; the diagonal constant (two iotas compared, converted, scaled, broadcast twice); the final sum. -/
abbrev ops : List (HloOp τ sig (Elt F)) :=
  [ nullary main_c (fun i => lit0 (S528.rowMajor i)),
    nullary main_c_0 (constantI S528 1 0#1),
    nullary main_c_1 (fun i => lit1 (S528.rowMajor i)),
    nullary main_c_2 (constantI S528 1 0#1),
    unary main_arg1 main_v0 ((transpose S512x528 [1, 0] · transposes_S528x512_S512x528_1_0) : (⟨S528x512, .f32⟩ : BufTy).Contents (Elt F) → (⟨S512x528, .f32⟩ : BufTy).Contents (Elt F)),
    binary main_arg0 main_v0 main_v1 ((fun l r => Host.dotGeneral dot_S65536x512_S512x528_S65536x528_1_0_0_1_n_n none l r) : (⟨S65536x512, .f32⟩ : BufTy).Contents (Elt F) → (⟨S512x528, .f32⟩ : BufTy).Contents (Elt F) → (⟨S65536x528, .f32⟩ : BufTy).Contents (Elt F)),
    unary main_arg2 main_v2 (broadcastInDim S1x528 ![1] bcast_S528_S1x528_1 : (⟨S528, .f32⟩ : BufTy).Contents (Elt F) → (⟨S1x528, .f32⟩ : BufTy).Contents (Elt F)),
    unary main_v2 main_v3 (broadcastInDim S65536x528 ![0, 1] bcast_S1x528_S65536x528_0_1 : (⟨S1x528, .f32⟩ : BufTy).Contents (Elt F) → (⟨S65536x528, .f32⟩ : BufTy).Contents (Elt F)),
    binary main_v1 main_v3 main_v4 (addf : (⟨S65536x528, .f32⟩ : BufTy).Contents (Elt F) → (⟨S65536x528, .f32⟩ : BufTy).Contents (Elt F) → (⟨S65536x528, .f32⟩ : BufTy).Contents (Elt F)),
    nullary main_cst (constant S_ .f32 0x00000000#32),
    unary main_cst main_v5 (broadcastInDim S65536x32x32 ![] bcast_S_S65536x32x32 : (⟨S_, .f32⟩ : BufTy).Contents (Elt F) → (⟨S65536x32x32, .f32⟩ : BufTy).Contents (Elt F)),
    nullary main_c_3 (constantI S_ 32 32#32),
    unary main_c_3 main_v6 (broadcastInDim S528 ![] bcast_S_S528 : (⟨S_, .i32⟩ : BufTy).Contents (Elt F) → (⟨S528, .i32⟩ : BufTy).Contents (Elt F)),
    binary main_c main_v6 main_v7 (addi : (⟨S528, .i32⟩ : BufTy).Contents (Elt F) → (⟨S528, .i32⟩ : BufTy).Contents (Elt F) → (⟨S528, .i32⟩ : BufTy).Contents (Elt F)),
    ternary main_c_0 main_v7 main_c main_v8 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    nullary main_c_4 (constantI S_ 32 32#32),
    unary main_c_4 main_v9 (broadcastInDim S528 ![] bcast_S_S528 : (⟨S_, .i32⟩ : BufTy).Contents (Elt F) → (⟨S528, .i32⟩ : BufTy).Contents (Elt F)),
    binary main_c_1 main_v9 main_v10 (addi : (⟨S528, .i32⟩ : BufTy).Contents (Elt F) → (⟨S528, .i32⟩ : BufTy).Contents (Elt F) → (⟨S528, .i32⟩ : BufTy).Contents (Elt F)),
    ternary main_c_2 main_v10 main_c_1 main_v11 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    unary main_v8 main_v12 (broadcastInDim S528x1 ![0] bcast_S528_S528x1_0 : (⟨S528, .i32⟩ : BufTy).Contents (Elt F) → (⟨S528x1, .i32⟩ : BufTy).Contents (Elt F)),
    unary main_v11 main_v13 (broadcastInDim S528x1 ![0] bcast_S528_S528x1_0 : (⟨S528, .i32⟩ : BufTy).Contents (Elt F) → (⟨S528x1, .i32⟩ : BufTy).Contents (Elt F)),
    binary main_v12 main_v13 main_v14 (pairCols : (⟨S528x1, .i32⟩ : BufTy).Contents (Elt F) → (⟨S528x1, .i32⟩ : BufTy).Contents (Elt F) → (⟨S528x2, .i32⟩ : BufTy).Contents (Elt F)),
    ternary main_v5 main_v14 main_v4 main_v15 ((fun x i u => Host.scatter scatter_S65536x32x32_S528x2_S65536x528_0_12_12_1 (fun _ b => b) x i u) : (⟨S65536x32x32, .f32⟩ : BufTy).Contents (Elt F) → (⟨S528x2, .i32⟩ : BufTy).Contents (Elt F) → (⟨S65536x528, .f32⟩ : BufTy).Contents (Elt F) → (⟨S65536x32x32, .f32⟩ : BufTy).Contents (Elt F)),
    binary main_v15 main_v15 main_v16 ((fun l r => Host.dotGeneral dot_S65536x32x32_S65536x32x32_S65536x32x32_2_2_1_1_0_0 none l r) : (⟨S65536x32x32, .f32⟩ : BufTy).Contents (Elt F) → (⟨S65536x32x32, .f32⟩ : BufTy).Contents (Elt F) → (⟨S65536x32x32, .f32⟩ : BufTy).Contents (Elt F)),
    nullary main_v17 (iotaInDim S32x32 32 0),
    nullary main_v18 (iotaInDim S32x32 32 1),
    nullary main_c_5 (constantI S_ 32 0#32),
    unary main_c_5 main_v19 (broadcastInDim S32x32 ![] bcast_S_S32x32 : (⟨S_, .i32⟩ : BufTy).Contents (Elt F) → (⟨S32x32, .i32⟩ : BufTy).Contents (Elt F)),
    binary main_v17 main_v19 main_v20 (addi : (⟨S32x32, .i32⟩ : BufTy).Contents (Elt F) → (⟨S32x32, .i32⟩ : BufTy).Contents (Elt F) → (⟨S32x32, .i32⟩ : BufTy).Contents (Elt F)),
    binary main_v20 main_v18 main_v21 (cmpi .eq : (⟨S32x32, .i32⟩ : BufTy).Contents (Elt F) → (⟨S32x32, .i32⟩ : BufTy).Contents (Elt F) → (⟨S32x32, .i1⟩ : BufTy).Contents (Elt F)),
    unary main_v21 main_v22 (uitofp .f32 : (⟨S32x32, .i1⟩ : BufTy).Contents (Elt F) → (⟨S32x32, .f32⟩ : BufTy).Contents (Elt F)),
    nullary main_cst_6 (constant S_ .f32 0x38D1B717#32),
    unary main_cst_6 main_v23 (broadcastInDim S32x32 ![] bcast_S_S32x32 : (⟨S_, .f32⟩ : BufTy).Contents (Elt F) → (⟨S32x32, .f32⟩ : BufTy).Contents (Elt F)),
    binary main_v23 main_v22 main_v24 (mulf : (⟨S32x32, .f32⟩ : BufTy).Contents (Elt F) → (⟨S32x32, .f32⟩ : BufTy).Contents (Elt F) → (⟨S32x32, .f32⟩ : BufTy).Contents (Elt F)),
    unary main_v24 main_v25 (broadcastInDim S1x32x32 ![1, 2] bcast_S32x32_S1x32x32_1_2 : (⟨S32x32, .f32⟩ : BufTy).Contents (Elt F) → (⟨S1x32x32, .f32⟩ : BufTy).Contents (Elt F)),
    unary main_v25 main_v26 (broadcastInDim S65536x32x32 ![0, 1, 2] bcast_S1x32x32_S65536x32x32_0_1_2 : (⟨S1x32x32, .f32⟩ : BufTy).Contents (Elt F) → (⟨S65536x32x32, .f32⟩ : BufTy).Contents (Elt F)),
    binary main_v16 main_v26 main_v27 (addf : (⟨S65536x32x32, .f32⟩ : BufTy).Contents (Elt F) → (⟨S65536x32x32, .f32⟩ : BufTy).Contents (Elt F) → (⟨S65536x32x32, .f32⟩ : BufTy).Contents (Elt F)) ]

/-- The program is the straight line of these operations. -/
theorem main_eq (c : Dev nD) : main (F := F) c = seq ops := rfl

/-- The signature scopes no buffer and no semaphore of the core. -/
theorem scopedRefs_eq : (Finset.univ.filter fun b : Ref sig .tc => b.isScoped) = ∅ := by decide
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig :=
  ⟨nullary_bufs_sub .., nullary_bufs_sub .., nullary_bufs_sub .., nullary_bufs_sub ..,
   unary_bufs_sub .., binary_bufs_sub .., unary_bufs_sub .., unary_bufs_sub .., binary_bufs_sub ..,
   nullary_bufs_sub .., unary_bufs_sub ..,
   nullary_bufs_sub .., unary_bufs_sub .., binary_bufs_sub .., ternary_bufs_sub ..,
   nullary_bufs_sub .., unary_bufs_sub .., binary_bufs_sub .., ternary_bufs_sub ..,
   unary_bufs_sub .., unary_bufs_sub .., binary_bufs_sub .., ternary_bufs_sub .., binary_bufs_sub ..,
   nullary_bufs_sub .., nullary_bufs_sub .., nullary_bufs_sub .., unary_bufs_sub .., binary_bufs_sub .., binary_bufs_sub ..,
   unary_bufs_sub .., nullary_bufs_sub .., unary_bufs_sub .., binary_bufs_sub .., unary_bufs_sub .., unary_bufs_sub ..,
   binary_bufs_sub ..⟩

/-- Every weakly fair execution of the reference ends with its result at `refOut` of the arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v27).trans (by after_results_simp; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.RefRun

end
-- ==== Proof.RefLinear.lean ====
/-
  The reference's linear layer read at one entry: the host's product with the transposed weight is the plain sum over
  the 512 inputs of `x n d · W s d`, and the twice-broadcast bias is `b s`.
-/
import proofs.«110930_j79723182948721_1_alg».proof.Proof.RefTerm
import proofs.«110930_j79723182948721_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefLinear
open Cert.ReferenceIdeal Cert.ReferenceIdeal.Gen Cert.ReferenceIdeal.RefTerm Idealize.ShloMosaic Idealize.ShloMosaic.TcCoe Idealize.ShloMosaic.ValueIdx

/-! ## The operand indices of the product, axis by axis

  The product contracts the input's axis 1 with the transposed weight's axis 0. At the result entry `j` and the
  contraction position `k` the input is read at `(j 0, k)` and the transposed weight at `(k, j 1)`. -/

/-- The input's row is the result's row. -/
private theorem lhs_row (j : S65536x528.Idx) (k : dot_S65536x512_S512x528_S65536x528_1_0_0_1_n_n.contr.Idx) :
    (dot_S65536x512_S512x528_S65536x528_1_0_0_1_n_n.lhsIdx j k 0).val = (j 0).val := rfl

/-- The input's column is the contraction position. -/
private theorem lhs_col (j : S65536x528.Idx) (k : dot_S65536x512_S512x528_S65536x528_1_0_0_1_n_n.contr.Idx) :
    (dot_S65536x512_S512x528_S65536x528_1_0_0_1_n_n.lhsIdx j k 1).val = (k ⟨0, Nat.one_pos⟩).val :=
  dot_S65536x512_S512x528_S65536x528_1_0_0_1_n_n.lhsIdx_val_of_single rfl j k

/-- The transposed weight's row is the contraction position. -/
private theorem rhs_row (j : S65536x528.Idx) (k : dot_S65536x512_S512x528_S65536x528_1_0_0_1_n_n.contr.Idx) :
    (dot_S65536x512_S512x528_S65536x528_1_0_0_1_n_n.rhsIdx j k 0).val = (k ⟨0, Nat.one_pos⟩).val :=
  dot_S65536x512_S512x528_S65536x528_1_0_0_1_n_n.rhsIdx_val_of_single rfl j k

/-- The transposed weight's column is the result's column. -/
private theorem rhs_col (j : S65536x528.Idx) (k : dot_S65536x512_S512x528_S65536x528_1_0_0_1_n_n.contr.Idx) :
    (dot_S65536x512_S512x528_S65536x528_1_0_0_1_n_n.rhsIdx j k 1).val = (j 1).val := rfl

/-- The bias, made a row and then repeated over the batch, reads `b s` at every `(n, s)`. -/
private theorem bias_apply (b : FVec Ideal S528 .f32) (n : Fin 65536) (s : Fin 528) :
    broadcastInDim S65536x528 ![0, 1] bcast_S1x528_S65536x528_0_1 (broadcastInDim S1x528 ![1] bcast_S528_S1x528_1 b) (ix2 n s)
      = b (ix1 s) := by
  rw [broadcastInDim_apply ![0, 1] bcast_S1x528_S65536x528_0_1 _ (ix2 n s) (ix2 (0 : Fin 1) s)
    (fun a => match a with | ⟨0, _⟩ => rfl | ⟨1, _⟩ => rfl)]
  exact broadcastInDim_apply ![1] bcast_S528_S1x528_1 b (ix2 (0 : Fin 1) s) (ix1 s) (fun a => match a with | ⟨0, _⟩ => rfl)

/-- Entry `(n, s)` of the reference's linear layer is row `n`'s `lin`. -/
theorem linStage_apply (x : FVec Ideal S65536x512 .f32) (W : FVec Ideal S528x512 .f32) (b : FVec Ideal S528 .f32)
    (n : Fin 65536) (s : Fin 528) :
    linStage (F := Ideal) x W b (ix2 n s)
      = Cert.Spec.lin (fun d => x (ix2 n d)) (fun s d => W (ix2 s d)) (fun s => b (ix1 s)) s := by
  unfold linStage
  rw [addf_apply, bias_apply]
  show FloatOps.dotGeneral _ _ _ _ _ _ + _ = _
  rw [Ideal.dotGeneral_apply]
  unfold Cert.Spec.lin
  refine congrArg (· + b (ix1 s)) ?_
  -- the sum over the one-axis contraction index is the sum over its coordinate
  rw [← Equiv.sum_comp (contrEquiv1 dot_S65536x512_S512x528_S65536x528_1_0_0_1_n_n 512 rfl rfl).symm]
  refine Finset.sum_congr rfl fun d _ => ?_
  have hk : (((contrEquiv1 dot_S65536x512_S512x528_S65536x528_1_0_0_1_n_n 512 rfl rfl).symm d) ⟨0, Nat.one_pos⟩).val = d.val :=
    contrEquiv1_symm_val dot_S65536x512_S512x528_S65536x528_1_0_0_1_n_n 512 rfl rfl d
  -- the input is read at `(n, d)`, the transposed weight at `(d, s)`
  have hl : dot_S65536x512_S512x528_S65536x528_1_0_0_1_n_n.lhsIdx (ix2 n s)
      ((contrEquiv1 dot_S65536x512_S512x528_S65536x528_1_0_0_1_n_n 512 rfl rfl).symm d) = ix2 n d :=
    Shape.idx_ext₂ (lhs_row _ _) ((lhs_col _ _).trans hk)
  have hr : dot_S65536x512_S512x528_S65536x528_1_0_0_1_n_n.rhsIdx (ix2 n s)
      ((contrEquiv1 dot_S65536x512_S512x528_S65536x528_1_0_0_1_n_n 512 rfl rfl).symm d) = ix2 d s :=
    Shape.idx_ext₂ ((rhs_row _ _).trans hk) (rhs_col _ _)
  rw [hl, hr]
  -- the transposed weight at `(d, s)` is the weight at `(s, d)`
  exact congrArg (x (ix2 n d) * ·) (transpose_apply [1, 0] W transposes_S528x512_S512x528_1_0 (ix2 d s) (ix2 s d)
    (fun a => match a with | ⟨0, _⟩ => rfl | ⟨1, _⟩ => rfl))

end Cert.ReferenceIdeal.RefLinear

end
-- ==== Proof.LibScatterSet.lean ====
/-
  A host scatter whose combining function keeps the update (an `.at[…].set`), read at one entry.

  `Host.scatter d f x idx upd` folds over the update indices in row-major order; each step either leaves the array
  alone (the update's target lies outside the operand) or replaces the one entry at the target.  With `f = fun _ b => b`
  an entry that exactly one update index targets ends at that update's value, whatever the order; an entry no update
  index targets keeps the operand's value.

  The argument is about the fold alone.  Over ANY list of update numbers and any starting array: a step whose target
  is not `i` does not touch entry `i`, so a list none of whose members targets `i` leaves entry `i` as it was; and
  in a list without repeats in which `n₀` is the only member that targets `i`, the steps before `n₀` are irrelevant
  (the step of `n₀` overwrites entry `i` whatever it held), and the steps after `n₀` all miss `i`.  The row-major
  enumeration of the update's index space is one such list.
-/
import Idealize.ShloMosaic.PureOps.ShapeOps

namespace Idealize.ShloMosaic

section SetFold

variable {α : Type} {w : Nat} {s si u : Shape}

/-- One step of the fold of a scatter that keeps the update: the update numbered `n` (row-major) replaces the entry at
    its target, when that target lies inside the operand. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- A step whose target is not `i` leaves entry `i` alone. -/
private theorem setStep_of_ne (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  generalize d.resultIdx? (u.rowMajor.symm n) idx = o at h
  cases o with
  | none => rfl
  | some i₀ =>
    have hne : i ≠ i₀ := fun e => h (e ▸ rfl)
    simp [hne]

/-- A step whose target is `i` puts its update at entry `i`, whatever was there. -/
private theorem setStep_of_eq (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  simp

/-- A list of updates none of which targets `i` leaves entry `i` as it was. -/
private theorem foldl_setStep_of_miss (d : ScatterDims s si u) (idx : IVec si w) (upd : u.Idx → α)
    (L : List (Fin u.numel)) (r : s.Idx → α) (i : s.Idx)
    (h : ∀ n ∈ L, d.resultIdx? (u.rowMajor.symm n) idx ≠ some i) :
    L.foldl (setStep d idx upd) r i = r i := by
  induction L generalizing r with
  | nil => rfl
  | cons n L ih =>
    rw [List.foldl_cons, ih _ (fun m hm => h m (List.mem_cons_of_mem _ hm)),
      setStep_of_ne d idx upd r n i (h n List.mem_cons_self)]

/-- In a list without repeats whose only member targeting `i` is `n₀`, entry `i` ends at the update numbered `n₀`:
    the steps before it are overwritten, the steps after it miss `i`. -/
private theorem foldl_setStep_of_hit (d : ScatterDims s si u) (idx : IVec si w) (upd : u.Idx → α)
    (L : List (Fin u.numel)) (hL : L.Nodup) (r : s.Idx → α) (i : s.Idx) (n₀ : Fin u.numel) (hmem : n₀ ∈ L)
    (h₀ : d.resultIdx? (u.rowMajor.symm n₀) idx = some i)
    (huniq : ∀ n ∈ L, d.resultIdx? (u.rowMajor.symm n) idx = some i → n = n₀) :
    L.foldl (setStep d idx upd) r i = upd (u.rowMajor.symm n₀) := by
  induction L generalizing r with
  | nil => cases hmem
  | cons n L ih =>
    rw [List.foldl_cons]
    have hnd := List.nodup_cons.mp hL
    by_cases hn : n = n₀
    · subst hn
      rw [foldl_setStep_of_miss d idx upd L _ i]
      · exact setStep_of_eq d idx upd r n i h₀
      · intro m hm hmi
        have hmn := huniq m (List.mem_cons_of_mem _ hm) hmi
        exact hnd.1 (hmn ▸ hm)
    · have hmem' : n₀ ∈ L := by
        rcases List.mem_cons.mp hmem with e | e
        · exact absurd e.symm hn
        · exact e
      exact ih hnd.2 _ hmem' (fun m hm => huniq m (List.mem_cons_of_mem _ hm))

/-- The scatter that keeps the update is the fold of `setStep` over the row-major numbering. -/
private theorem scatter_set_eq_foldl (d : ScatterDims s si u) (x : s.Idx → α) (idx : IVec si w) (upd : u.Idx → α) :
    Host.scatter d (fun _ b => b) x idx upd = (List.finRange u.numel).foldl (setStep d idx upd) x := rfl

end SetFold

/-- An entry that no update index targets keeps the operand's value. -/
theorem Host.scatter_set_apply_of_miss {α : Type} {w : Nat} {s si u : Shape} (d : ScatterDims s si u) (x : s.Idx → α)
    (idx : IVec si w) (upd : u.Idx → α) (i : s.Idx) (hmiss : ∀ j : u.Idx, d.resultIdx? j idx ≠ some i) :
    Host.scatter d (fun _ b => b) x idx upd i = x i := by
  rw [scatter_set_eq_foldl]
  exact foldl_setStep_of_miss d idx upd _ x i (fun n _ => hmiss _)

/-- An entry that exactly one update index `j` targets ends at `upd j`. -/
theorem Host.scatter_set_apply_of_hit {α : Type} {w : Nat} {s si u : Shape} (d : ScatterDims s si u) (x : s.Idx → α)
    (idx : IVec si w) (upd : u.Idx → α) (i : s.Idx) (j : u.Idx) (hj : d.resultIdx? j idx = some i)
    (huniq : ∀ j' : u.Idx, d.resultIdx? j' idx = some i → j' = j) :
    Host.scatter d (fun _ b => b) x idx upd i = upd j := by
  rw [scatter_set_eq_foldl]
  have hj' : d.resultIdx? (u.rowMajor.symm (u.rowMajor j)) idx = some i := by
    rw [Equiv.symm_apply_apply]; exact hj
  have key := foldl_setStep_of_hit d idx upd (List.finRange u.numel) (List.nodup_finRange _) x i (u.rowMajor j)
    (List.mem_finRange _) hj'
    (fun n _ hn => by
      have e := huniq _ hn
      rw [← e, Equiv.apply_symm_apply])
  rw [key, Equiv.symm_apply_apply]

end Idealize.ShloMosaic
-- ==== Proof.RefTril.lean ====
/-
  The reference's scatter read at one entry. The position table lists, for each packed position `s`, the row and the
  column of the lower triangle it belongs to, row by row; so every entry `(i, k)` with `k ≤ i` is the target of exactly
  one packed position, `i (i + 1) / 2 + k`, and no entry above the diagonal is a target: the scattered array is `tril`
  of the packed row.
-/
import proofs.«110930_j79723182948721_1_alg».proof.Proof.RefTerm
import proofs.«110930_j79723182948721_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«110930_j79723182948721_1_alg».proof.Proof.LibScatterSet

noncomputable section

open scoped BigOperators

namespace Cert.ReferenceIdeal.RefTril
open Cert.ReferenceIdeal Cert.ReferenceIdeal.Gen Cert.ReferenceIdeal.RefTerm Idealize.ShloMosaic Idealize.ShloMosaic.TcCoe Idealize.ShloMosaic.ValueIdx

/-- The row table read at a packed position is the literal table of rows: the mask of the `select` is constant false. -/
private theorem rowTab_apply (s : Fin 528) : rowTab (ix1 s) = lit0 s := by
  unfold rowTab
  rw [select_apply, constantI_apply, select_zero]
  exact congrArg lit0 (Fin.ext (Shape.rowMajor_val_one _))

/-- The column table read at a packed position is the literal table of columns. -/
private theorem colTab_apply (s : Fin 528) : colTab (ix1 s) = lit1 s := by
  unfold colTab
  rw [select_apply, constantI_apply, select_zero]
  exact congrArg lit1 (Fin.ext (Shape.rowMajor_val_one _))

/-- Entry `(s, 0)` of the position table is the row of packed position `s`. -/
private theorem idxTab_apply_row (s : Fin 528) : idxTab (ix2 s (0 : Fin 2)) = lit0 s := by
  unfold idxTab
  rw [concatenate_pair_apply_left (t := S528x2) (s₁ := S528x1) (s₂ := S528x1) (1 : Fin 2) _ _
    concatenates_S528x1_S528x1_S528x2_d1 (ix2 s (0 : Fin 2)) rfl (ix2 s (0 : Fin 1))
    (by intro b; match b with | ⟨0, _⟩ => rfl | ⟨1, _⟩ => rfl)]
  rw [broadcastInDim_apply (s := S528) (t := S528x1) ![0] bcast_S528_S528x1_0 rowTab (ix2 s (0 : Fin 1)) (ix1 s)
    (by intro a; match a with | ⟨0, _⟩ => rfl)]
  exact rowTab_apply s

/-- Entry `(s, 1)` of the position table is the column of packed position `s`. -/
private theorem idxTab_apply_col (s : Fin 528) : idxTab (ix2 s (1 : Fin 2)) = lit1 s := by
  unfold idxTab
  rw [concatenate_pair_apply_right (t := S528x2) (s₁ := S528x1) (s₂ := S528x1) (1 : Fin 2) _ _
    concatenates_S528x1_S528x1_S528x2_d1 (ix2 s (1 : Fin 2)) rfl rfl (ix2 s (0 : Fin 1))
    (by intro b hb; match b, hb with | ⟨0, _⟩, _ => rfl | ⟨1, _⟩, hb => exact absurd rfl hb)
    rfl]
  rw [broadcastInDim_apply (s := S528) (t := S528x1) ![0] bcast_S528_S528x1_0 colTab (ix2 s (0 : Fin 1)) (ix1 s)
    (by intro a; match a with | ⟨0, _⟩ => rfl)]
  exact colTab_apply s

local notation "D" => scatter_S65536x32x32_S528x2_S65536x528_0_12_12_1

/-! The scatter's dimension numbers read at update index `(n, s)`: the start index is the table's row `s`, its two
components going to operand axes 1 and 2; the window is the batch coordinate `n` on operand axis 0. -/

private theorem siIdx_row (n : Fin 65536) (s : Fin 528) (h : 0 < (D).scatterDimsToOperandDims.length) :
    (D).siIdx (ix2 n s) ⟨0, h⟩ = ix2 s (0 : Fin 2) := by
  funext b; match b with | ⟨0, _⟩ => rfl | ⟨1, _⟩ => rfl

private theorem siIdx_col (n : Fin 65536) (s : Fin 528) (h : 1 < (D).scatterDimsToOperandDims.length) :
    (D).siIdx (ix2 n s) ⟨1, h⟩ = ix2 s (1 : Fin 2) := by
  funext b; match b with | ⟨0, _⟩ => rfl | ⟨1, _⟩ => rfl

private theorem start_batch (n : Fin 65536) (s : Fin 528) : (D).start (ix2 n s) idxTab (0 : Fin 3) = 0 := by
  unfold ScatterDims.start
  exact dif_neg (show (0 : Fin 3) ∉ ([1, 2] : List (Fin 3)) by decide)

private theorem start_row (n : Fin 65536) (s : Fin 528) : (D).start (ix2 n s) idxTab (1 : Fin 3) = (lit0 s).toInt := by
  have ha : (1 : Fin 3) ∈ (D).scatterDimsToOperandDims := show (1 : Fin 3) ∈ ([1, 2] : List (Fin 3)) by decide
  unfold ScatterDims.start
  rw [dif_pos ha]
  exact (congrArg (fun v => (idxTab v).toInt) (siIdx_row n s _)).trans (congrArg BitVec.toInt (idxTab_apply_row s))

private theorem start_col (n : Fin 65536) (s : Fin 528) : (D).start (ix2 n s) idxTab (2 : Fin 3) = (lit1 s).toInt := by
  have ha : (2 : Fin 3) ∈ (D).scatterDimsToOperandDims := show (2 : Fin 3) ∈ ([1, 2] : List (Fin 3)) by decide
  unfold ScatterDims.start
  rw [dif_pos ha]
  exact (congrArg (fun v => (idxTab v).toInt) (siIdx_col n s _)).trans (congrArg BitVec.toInt (idxTab_apply_col s))

private theorem window_batch (n : Fin 65536) (s : Fin 528) : (D).window (ix2 n s) (0 : Fin 3) = n.val := by
  have ha : (0 : Fin 3) ∈ (D).sKept := show (0 : Fin 3) ∈ ([0] : List (Fin 3)) by decide
  unfold ScatterDims.window
  rw [dif_pos ha]
  rfl

private theorem window_row (n : Fin 65536) (s : Fin 528) : (D).window (ix2 n s) (1 : Fin 3) = 0 := by
  unfold ScatterDims.window
  exact dif_neg (show (1 : Fin 3) ∉ ([0] : List (Fin 3)) by decide)

private theorem window_col (n : Fin 65536) (s : Fin 528) : (D).window (ix2 n s) (2 : Fin 3) = 0 := by
  unfold ScatterDims.window
  exact dif_neg (show (2 : Fin 3) ∉ ([0] : List (Fin 3)) by decide)

/-! The two literal tables decoded, by exhaustion over their 528 entries: the row is below 32, the column at most the
row, and the position is `row (row + 1) / 2 + column`; conversely the entry at `i (i + 1) / 2 + k`, `k ≤ i`, lists row
`i` and column `k`. -/

private theorem decode_fwd : ∀ s : Fin 528, (lit0 s).toNat < 32 ∧ (lit1 s).toNat ≤ (lit0 s).toNat ∧
    s.val = (lit0 s).toNat * ((lit0 s).toNat + 1) / 2 + (lit1 s).toNat := by
  decide

private theorem decode_bwd : ∀ i k : Fin 32, k.val ≤ i.val →
    lit0t (i.val * (i.val + 1) / 2 + k.val) = BitVec.ofNat 32 i.val ∧
    lit1t (i.val * (i.val + 1) / 2 + k.val) = BitVec.ofNat 32 k.val := by
  decide

/-- The row of the triangle packed position `s` belongs to. -/
private def rowOf (s : Fin 528) : Fin 32 := ⟨(lit0 s).toNat, (decode_fwd s).1⟩

/-- The column of the triangle packed position `s` belongs to. -/
private def colOf (s : Fin 528) : Fin 32 := ⟨(lit1 s).toNat, lt_of_le_of_lt (decode_fwd s).2.1 (decode_fwd s).1⟩

private theorem colOf_le_rowOf (s : Fin 528) : (colOf s).val ≤ (rowOf s).val := (decode_fwd s).2.1

private theorem pos_eq (s : Fin 528) : s.val = (rowOf s).val * ((rowOf s).val + 1) / 2 + (colOf s).val := (decode_fwd s).2.2

private theorem rowOf_trilPos (i k : Fin 32) (h : k.val ≤ i.val) : rowOf (Cert.Spec.trilPos i k h) = i := by
  apply Fin.ext
  show (lit0t (i.val * (i.val + 1) / 2 + k.val)).toNat = i.val
  rw [(decode_bwd i k h).1, BitVec.toNat_ofNat]
  exact Nat.mod_eq_of_lt (by have := i.isLt; omega)

private theorem colOf_trilPos (i k : Fin 32) (h : k.val ≤ i.val) : colOf (Cert.Spec.trilPos i k h) = k := by
  apply Fin.ext
  show (lit1t (i.val * (i.val + 1) / 2 + k.val)).toNat = k.val
  rw [(decode_bwd i k h).2, BitVec.toNat_ofNat]
  exact Nat.mod_eq_of_lt (by have := k.isLt; omega)

/-- Update index `(n, s)` lands at entry `(n, row s, col s)`: both table words are below 32, so read signed they are
their own values, and the target is inside the operand on every axis. -/
private theorem resultIdx_apply (n : Fin 65536) (s : Fin 528) :
    (D).resultIdx? (ix2 n s) idxTab = some (ix3 n (rowOf s) (colOf s)) := by
  have hd := decode_fwd s
  have hr : (lit0 s).toInt = ((lit0 s).toNat : Int) := BitVec.toInt_eq_toNat_of_lt (by omega)
  have hc : (lit1 s).toInt = ((lit1 s).toNat : Int) := BitVec.toInt_eq_toNat_of_lt (by omega)
  have e0 : (D).start (ix2 n s) idxTab (0 : Fin 3) + ((D).window (ix2 n s) (0 : Fin 3) : Int) = (n.val : Int) := by
    rw [start_batch, window_batch]; omega
  have e1 : (D).start (ix2 n s) idxTab (1 : Fin 3) + ((D).window (ix2 n s) (1 : Fin 3) : Int) = ((lit0 s).toNat : Int) := by
    rw [start_row, window_row, hr]; omega
  have e2 : (D).start (ix2 n s) idxTab (2 : Fin 3) + ((D).window (ix2 n s) (2 : Fin 3) : Int) = ((lit1 s).toNat : Int) := by
    rw [start_col, window_col, hc]; omega
  have H : ∀ a : Fin 3, 0 ≤ (D).start (ix2 n s) idxTab a + ((D).window (ix2 n s) a : Int) ∧
      (D).start (ix2 n s) idxTab a + ((D).window (ix2 n s) a : Int) < ((S65536x32x32.size a : Nat) : Int) := by
    intro a
    match a with
    | ⟨0, _⟩ =>
      show 0 ≤ (D).start (ix2 n s) idxTab (0 : Fin 3) + ((D).window (ix2 n s) (0 : Fin 3) : Int) ∧
        (D).start (ix2 n s) idxTab (0 : Fin 3) + ((D).window (ix2 n s) (0 : Fin 3) : Int) < ((65536 : Nat) : Int)
      rw [e0]; have := n.isLt; omega
    | ⟨1, _⟩ =>
      show 0 ≤ (D).start (ix2 n s) idxTab (1 : Fin 3) + ((D).window (ix2 n s) (1 : Fin 3) : Int) ∧
        (D).start (ix2 n s) idxTab (1 : Fin 3) + ((D).window (ix2 n s) (1 : Fin 3) : Int) < ((32 : Nat) : Int)
      rw [e1]; omega
    | ⟨2, _⟩ =>
      show 0 ≤ (D).start (ix2 n s) idxTab (2 : Fin 3) + ((D).window (ix2 n s) (2 : Fin 3) : Int) ∧
        (D).start (ix2 n s) idxTab (2 : Fin 3) + ((D).window (ix2 n s) (2 : Fin 3) : Int) < ((32 : Nat) : Int)
      rw [e2]; omega
  unfold ScatterDims.resultIdx?
  rw [dif_pos H]
  refine congrArg some (funext fun a => Fin.ext ?_)
  match a with
  | ⟨0, _⟩ =>
    show ((D).start (ix2 n s) idxTab (0 : Fin 3) + ((D).window (ix2 n s) (0 : Fin 3) : Int)).toNat = n.val
    rw [e0]; omega
  | ⟨1, _⟩ =>
    show ((D).start (ix2 n s) idxTab (1 : Fin 3) + ((D).window (ix2 n s) (1 : Fin 3) : Int)).toNat = (lit0 s).toNat
    rw [e1]; omega
  | ⟨2, _⟩ =>
    show ((D).start (ix2 n s) idxTab (2 : Fin 3) + ((D).window (ix2 n s) (2 : Fin 3) : Int)).toNat = (lit1 s).toNat
    rw [e2]; omega

/-- Entry `(n, i, k)` of the scattered array is `tril` of packed row `n`. -/
theorem trilStage_apply (y : FVec Ideal S65536x528 .f32) (n : Fin 65536) (i k : Fin 32) :
    trilStage (F := Ideal) y (ix3 n i k) = Cert.Spec.tril (fun s => y (ix2 n s)) i k := by
  unfold trilStage Cert.Spec.tril
  by_cases h : k.val ≤ i.val
  · -- on or below the diagonal: packed position `i (i + 1) / 2 + k` of row `n` is the one update landing here
    rw [dif_pos h]
    refine Host.scatter_set_apply_of_hit (D) _ idxTab y (ix3 n i k) (ix2 n (Cert.Spec.trilPos i k h)) ?_ ?_
    · rw [resultIdx_apply, rowOf_trilPos, colOf_trilPos]
    · intro j' hj'
      obtain ⟨n', s', rfl⟩ : ∃ (n' : Fin 65536) (s' : Fin 528), j' = ix2 n' s' := ⟨j' 0, j' 1, eq_ix2 j'⟩
      rw [resultIdx_apply] at hj'
      have he := Option.some.inj hj'
      have h0 : n' = n := congrFun he 0
      have h1 : rowOf s' = i := congrFun he 1
      have h2 : colOf s' = k := congrFun he 2
      have hs : s' = Cert.Spec.trilPos i k h := by
        apply Fin.ext
        have hp := pos_eq s'
        rw [h1, h2] at hp
        exact hp
      rw [h0, hs]
  · -- above the diagonal: every update lands at a column that is at most its row, so none lands here
    rw [dif_neg h]
    rw [Host.scatter_set_apply_of_miss (D) _ idxTab y (ix3 n i k) (by
      intro j' hj'
      obtain ⟨n', s', rfl⟩ : ∃ (n' : Fin 65536) (s' : Fin 528), j' = ix2 n' s' := ⟨j' 0, j' 1, eq_ix2 j'⟩
      rw [resultIdx_apply] at hj'
      have he := Option.some.inj hj'
      have h1 : rowOf s' = i := congrFun he 1
      have h2 : colOf s' = k := congrFun he 2
      have hle := colOf_le_rowOf s'
      rw [h1, h2] at hle
      exact h hle)]
    rw [broadcastInDim_scalar_apply, constant_apply]
    exact Ideal.ofBits_zero_f32

end Cert.ReferenceIdeal.RefTril

end
-- ==== Proof.RefCov.lean ====
/-
  The reference's batched product and diagonal constant read at one entry: the host's product of `L` with itself,
  contracting the last axes, is the sum over `k` of `L n i k · L n j k`; the indicator of the diagonal converted to a
  float is one on the diagonal and zero off it, so its product with the literal is the literal or zero.
-/
import proofs.«110930_j79723182948721_1_alg».proof.Proof.RefTerm
import proofs.«110930_j79723182948721_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefCov
open Cert.ReferenceIdeal Cert.ReferenceIdeal.Gen Cert.ReferenceIdeal.RefTerm Idealize.ShloMosaic Idealize.ShloMosaic.TcCoe Idealize.ShloMosaic.ValueIdx

/-- The one coordinate of a contraction index built from `k` is `k`. -/
private theorem cov_contr_val (k : Fin 32) :
    (((contrEquiv1 dot_S65536x32x32_S65536x32x32_S65536x32x32_2_2_1_1_0_0 32 rfl rfl).symm k) ⟨0, by decide⟩ : ℕ) = k.val :=
  contrEquiv1_symm_val dot_S65536x32x32_S65536x32x32_S65536x32x32_2_2_1_1_0_0 32 rfl rfl k

/-- The left operand is read at matrix `n`, row `i` (the result's row), column `k` (the contracted coordinate). -/
private theorem cov_lhsIdx (n : Fin 65536) (i j k : Fin 32) :
    dot_S65536x32x32_S65536x32x32_S65536x32x32_2_2_1_1_0_0.lhsIdx (ix3 n i j) ((contrEquiv1 dot_S65536x32x32_S65536x32x32_S65536x32x32_2_2_1_1_0_0 32 rfl rfl).symm k) = ix3 n i k := by
  funext ax; apply Fin.ext
  match ax with
  | ⟨0, _⟩ => simp [DotDims.lhsIdx, dot_S65536x32x32_S65536x32x32_S65536x32x32_2_2_1_1_0_0]; rfl
  | ⟨1, _⟩ => simp [DotDims.lhsIdx, dot_S65536x32x32_S65536x32x32_S65536x32x32_2_2_1_1_0_0]; rfl
  | ⟨2, _⟩ => simp [DotDims.lhsIdx, dot_S65536x32x32_S65536x32x32_S65536x32x32_2_2_1_1_0_0]; exact cov_contr_val k

/-- The right operand is read at matrix `n`, row `j` (the result's column), column `k`. -/
private theorem cov_rhsIdx (n : Fin 65536) (i j k : Fin 32) :
    dot_S65536x32x32_S65536x32x32_S65536x32x32_2_2_1_1_0_0.rhsIdx (ix3 n i j) ((contrEquiv1 dot_S65536x32x32_S65536x32x32_S65536x32x32_2_2_1_1_0_0 32 rfl rfl).symm k) = ix3 n j k := by
  funext ax; apply Fin.ext
  match ax with
  | ⟨0, _⟩ => simp [DotDims.rhsIdx, dot_S65536x32x32_S65536x32x32_S65536x32x32_2_2_1_1_0_0]; rfl
  | ⟨1, _⟩ => simp [DotDims.rhsIdx, dot_S65536x32x32_S65536x32x32_S65536x32x32_2_2_1_1_0_0]; rfl
  | ⟨2, _⟩ => simp [DotDims.rhsIdx, dot_S65536x32x32_S65536x32x32_S65536x32x32_2_2_1_1_0_0]; exact cov_contr_val k

/-- The product of `L` with itself over the last axes, matrix by matrix, read at an entry. -/
private theorem dot_apply (L : FVec Ideal S65536x32x32 .f32) (n : Fin 65536) (i j : Fin 32) :
    Host.dotGeneral dot_S65536x32x32_S65536x32x32_S65536x32x32_2_2_1_1_0_0 none L L (ix3 n i j) = ∑ k : Fin 32, L (ix3 n i k) * L (ix3 n j k) := by
  simp only [Host.dotGeneral]
  rw [Ideal.dotGeneral_apply, ← Equiv.sum_comp (contrEquiv1 dot_S65536x32x32_S65536x32x32_S65536x32x32_2_2_1_1_0_0 32 rfl rfl).symm]
  refine Finset.sum_congr rfl fun k _ => ?_
  rw [cov_lhsIdx, cov_rhsIdx]

/-- Two coordinates below 32 with the same 32-bit word are equal. -/
private theorem word_inj (i j : Fin 32) (h : BitVec.ofNat 32 i.val = BitVec.ofNat 32 j.val) : i = j := by
  have ht := congrArg BitVec.toNat h
  simp only [BitVec.toNat_ofNat] at ht
  have hi := i.isLt
  have hj := j.isLt
  apply Fin.ext
  omega

/-- The diagonal constant read at an entry: the literal where row and column agree, zero elsewhere. -/
private theorem eye_apply (n : Fin 65536) (i j : Fin 32) :
    eyeStage (F := Ideal) (ix3 n i j) = if i = j then Cert.Spec.eps else 0 := by
  unfold eyeStage
  rw [broadcastInDim_apply _ _ _ (ix3 n i j) (ix3 (0 : Fin 1) i j)
      (by intro a; match a with | ⟨0, _⟩ => rfl | ⟨1, _⟩ => rfl | ⟨2, _⟩ => rfl),
    broadcastInDim_apply _ _ _ (ix3 (0 : Fin 1) i j) (ix2 i j)
      (by intro a; match a with | ⟨0, _⟩ => rfl | ⟨1, _⟩ => rfl),
    mulf_apply, broadcastInDim_scalar_apply, constant_apply]
  show Ideal.ofBits .f32 0x38D1B717#32
      * (((IntOp.cmpi .eq (IntOp.addi (BitVec.ofNat 32 i.val) 0#32) (BitVec.ofNat 32 j.val)).toNat : ℝ) : EReal) = _
  have hadd : IntOp.addi (BitVec.ofNat 32 i.val) 0#32 = BitVec.ofNat 32 i.val := BitVec.add_zero _
  rw [hadd]
  by_cases h : i = j
  · subst h
    rw [IntOp.cmpi_eq.2 rfl, if_pos rfl]
    show Cert.Spec.eps * (((1 : ℕ) : ℝ) : EReal) = _
    simp
  · have hne : ¬ IntOp.cmpi .eq (BitVec.ofNat 32 i.val) (BitVec.ofNat 32 j.val) = 1#1 := fun hc =>
      h (word_inj i j (IntOp.cmpi_eq.1 hc))
    rw [eq_zero_of_ne_one hne, if_neg h]
    show Ideal.ofBits .f32 0x38D1B717#32 * (((0 : ℕ) : ℝ) : EReal) = _
    simp

/-- Entry `(n, i, j)` of the last stage is the Gram matrix of matrix `n`'s rows plus the diagonal constant. -/
theorem covStage_apply (L : FVec Ideal S65536x32x32 .f32) (n : Fin 65536) (i j : Fin 32) :
    covStage (F := Ideal) L (ix3 n i j) = Cert.Spec.gram (fun i k => L (ix3 n i k)) i j := by
  unfold covStage Cert.Spec.gram
  rw [addf_apply, dot_apply, eye_apply]

end Cert.ReferenceIdeal.RefCov

end
-- ==== Proof.RefValue.lean ====
/-
  The reference's result is the specification: the three stages read one after the other at an entry.
-/
import proofs.«110930_j79723182948721_1_alg».proof.Proof.RefTerm
import proofs.«110930_j79723182948721_1_alg».proof.Proof.Spec
import Idealize.ShloMosaic.Lib.ValueIdx
import Idealize.ShloMosaic.Lib.Pipeline.Value
import Idealize.ShloMosaic.PureOps.Ideal.Laws
import proofs.«110930_j79723182948721_1_alg».proof.Proof.RefLinear
import proofs.«110930_j79723182948721_1_alg».proof.Proof.RefTril
import proofs.«110930_j79723182948721_1_alg».proof.Proof.RefCov

noncomputable section

open scoped BigOperators

namespace Cert.ReferenceIdeal.RefValue
open Cert.ReferenceIdeal Cert.ReferenceIdeal.Gen Cert.ReferenceIdeal.RefTerm Idealize.ShloMosaic Idealize.ShloMosaic.TcCoe Idealize.ShloMosaic.ValueIdx

/-- The reference's composed term is the specification `G` of its arguments. -/
theorem refOut_eq (x : FVec Ideal S65536x512 .f32) (W : FVec Ideal S528x512 .f32) (b : FVec Ideal S528 .f32) :
    refOut (F := Ideal) x W b = Cert.Spec.G x W b := by
  funext q
  obtain ⟨n, i, j, rfl⟩ : ∃ (n : Fin 65536) (i j : Fin 32), q = ix3 n i j := ⟨q 0, q 1, q 2, eq_ix3 q⟩
  rw [Cert.Spec.G_ix3]
  -- the packed row of batch entry `n`
  have hy : (fun s => linStage (F := Ideal) x W b (ix2 n s))
      = Cert.Spec.lin (fun d => x (ix2 n d)) (fun s d => W (ix2 s d)) (fun s => b (ix1 s)) :=
    funext fun s => Cert.ReferenceIdeal.RefLinear.linStage_apply x W b n s
  -- its unpacked triangle
  have hL : (fun i k => trilStage (F := Ideal) (linStage x W b) (ix3 n i k))
      = Cert.Spec.tril (Cert.Spec.lin (fun d => x (ix2 n d)) (fun s d => W (ix2 s d)) (fun s => b (ix1 s))) := by
    funext i k
    rw [Cert.ReferenceIdeal.RefTril.trilStage_apply, hy]
  show covStage (F := Ideal) (trilStage (linStage x W b)) (ix3 n i j) = _
  rw [Cert.ReferenceIdeal.RefCov.covStage_apply, hL]
  rfl

end Cert.ReferenceIdeal.RefValue

end
-- ==== Proof.lean ====
/-
  The certificate of the covariance kernel against its reference.

  Both programs compute, for every batch row, the Gram matrix of a lower-triangular 32 × 32 matrix plus a constant on the
  diagonal; the triangle is the row's image under a linear layer, unpacked row by row (`Cert.Spec.G`).  The kernel
  does it block by block over 64 grid points, building the triangle from slices padded with zeros; the reference
  scatters the packed vector into a zero array at a table of positions.  At the ideal values the two are the same sums
  of the same products, so the results agree entry by entry; no finiteness of the inputs is needed.

  The kernel's frames are the generated ones; the reference's frame is its run with the result dropped; the kernel's
  idealization rewrites nothing, so `preserves` is trivial.
-/
import proofs.«110930_j79723182948721_1_alg».proof.Defs
import proofs.«110930_j79723182948721_1_alg».proof.Proof.Gen.Kernel
import proofs.«110930_j79723182948721_1_alg».proof.Proof.Gen.Kernel.Skeleton
import proofs.«110930_j79723182948721_1_alg».proof.Proof.Gen.Kernel.Launch
import proofs.«110930_j79723182948721_1_alg».proof.Proof.Gen.Kernel.Points
import proofs.«110930_j79723182948721_1_alg».proof.Proof.Gen.Kernel.Frame
import proofs.«110930_j79723182948721_1_alg».proof.Proof.Gen.KernelIdeal
import proofs.«110930_j79723182948721_1_alg».proof.Proof.Gen.KernelIdeal.Skeleton
import proofs.«110930_j79723182948721_1_alg».proof.Proof.Gen.KernelIdeal.Launch
import proofs.«110930_j79723182948721_1_alg».proof.Proof.Gen.KernelIdeal.Points
import proofs.«110930_j79723182948721_1_alg».proof.Proof.Gen.KernelIdeal.Frame
import proofs.«110930_j79723182948721_1_alg».proof.Proof.Gen.KernelIdeal.Value
import proofs.«110930_j79723182948721_1_alg».proof.Proof.Gen.ReferenceIdeal
import proofs.«110930_j79723182948721_1_alg».proof.Proof.Gen.Pre_finite_inputs
import proofs.«110930_j79723182948721_1_alg».proof.Proof.Blocks
import proofs.«110930_j79723182948721_1_alg».proof.Proof.RefRun
import proofs.«110930_j79723182948721_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the arguments both programs end with the specification of those arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
